-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : IVec S2048x2048 32) (main_arg1 : IVec S2048x2048 32) : IVec S_ 1 :=
  let main_c : IVec S_ 32 := constantI S_ 32 0#32
  let main_v0 : IVec S2048x2048 32 := broadcastInDim S2048x2048 ![] bcast_S_S2048x2048 main_c
  let main_v1 : IVec S2048x2048 1 := cmpi .sge main_arg0 main_v0
  let main_c_0 : IVec S_ 32 := constantI S_ 32 65#32
  let main_v2 : IVec S2048x2048 32 := broadcastInDim S2048x2048 ![] bcast_S_S2048x2048 main_c_0
  let main_v3 : IVec S2048x2048 1 := cmpi .slt main_arg0 main_v2
  let main_v4 : IVec S2048x2048 1 := andi main_v1 main_v3
  let main_c_1 : IVec S_ 1 := constantI S_ 1 1#1
  let main_v5 : IVec S_ 1 := (fun x v => Host.reduce IntOp.andi x v reducesTo_S2048x2048_S_d0_1 h_S_) main_v4 main_c_1
  let main_c_2 : IVec S_ 32 := constantI S_ 32 0#32
  let main_v6 : IVec S2048x2048 32 := broadcastInDim S2048x2048 ![] bcast_S_S2048x2048 main_c_2
  let main_v7 : IVec S2048x2048 1 := cmpi .sge main_arg1 main_v6
  let main_c_3 : IVec S_ 32 := constantI S_ 32 65#32
  let main_v8 : IVec S2048x2048 32 := broadcastInDim S2048x2048 ![] bcast_S_S2048x2048 main_c_3
  let main_v9 : IVec S2048x2048 1 := cmpi .slt main_arg1 main_v8
  let main_v10 : IVec S2048x2048 1 := andi main_v7 main_v9
  let main_c_4 : IVec S_ 1 := constantI S_ 1 1#1
  let main_v11 : IVec S_ 1 := (fun x v => Host.reduce IntOp.andi x v reducesTo_S2048x2048_S_d0_1 h_S_) main_v10 main_c_4
  let main_v12 : IVec S_ 1 := andi main_v5 main_v11
  main_v12
-- ==== Kernel.lean ====
abbrev S2048x2048 : Shape := ⟨2, ![2048, 2048]⟩
abbrev S2x128x128 : Shape := ⟨3, ![2, 128, 128]⟩
abbrev S128x2048 : Shape := ⟨2, ![128, 2048]⟩
abbrev S1x128x128 : Shape := ⟨3, ![1, 128, 128]⟩
abbrev S128x128 : Shape := ⟨2, ![128, 128]⟩
abbrev S1x1x128 : Shape := ⟨3, ![1, 1, 128]⟩
abbrev S8x2048 : Shape := ⟨2, ![8, 2048]⟩
abbrev S8x2048x1 : Shape := ⟨3, ![8, 2048, 1]⟩
abbrev S8x2048x128 : Shape := ⟨3, ![8, 2048, 128]⟩
abbrev S16384x128 : Shape := ⟨2, ![16384, 128]⟩
abbrev S_ : Shape := ⟨0, ![]⟩
abbrev S65x65 : Shape := ⟨2, ![65, 65]⟩
abbrev S65 : Shape := ⟨1, ![65]⟩
abbrev S64x64 : Shape := ⟨2, ![64, 64]⟩
abbrev S64 : Shape := ⟨1, ![64]⟩
abbrev S64x1 : Shape := ⟨2, ![64, 1]⟩
abbrev S1x64 : Shape := ⟨2, ![1, 64]⟩

abbrev nBuf : Space → Nat
  | .hbm => 76
  | .vmem => 7
  | .smem => 0
  | _ => 0

abbrev bufTy : (tb : Table) → Fin (tcTables nBuf tb) → BufTy
  | .hbm, ⟨0, _⟩ => ⟨S2048x2048, .i32⟩
  | .hbm, ⟨1, _⟩ => ⟨S2048x2048, .i32⟩
  | .hbm, ⟨2, _⟩ => ⟨S2x128x128, .f32⟩
  | .hbm, ⟨3, _⟩ => ⟨S_, .f32⟩
  | .hbm, ⟨4, _⟩ => ⟨S128x128, .f32⟩
  | .hbm, ⟨5, _⟩ => ⟨S65x65, .f32⟩
  | .hbm, ⟨6, _⟩ => ⟨S_, .f32⟩
  | .hbm, ⟨7, _⟩ => ⟨S65, .f32⟩
  | .hbm, ⟨8, _⟩ => ⟨S_, .f32⟩
  | .hbm, ⟨9, _⟩ => ⟨S65, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S64, .f32⟩
  | .hbm, ⟨14, _⟩ => ⟨S1x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .i1⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S_, .f32⟩
  | .hbm, ⟨28, _⟩ => ⟨S64x64, .f32⟩
  | .hbm, ⟨29, _⟩ => ⟨S64x64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .i1⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .i1⟩
  | .hbm, ⟨38, _⟩ => ⟨S_, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S64, .i32⟩
  | .hbm, ⟨62, _⟩ => ⟨S_, .i32⟩
  | .hbm, ⟨63, _⟩ => ⟨S_, .i32⟩
  | .hbm, ⟨64, _⟩ => ⟨S64, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .local _ .vmem, ⟨0, _⟩ => ⟨S128x2048, .i32⟩
  | .local _ .vmem, ⟨1, _⟩ => ⟨S128x2048, .i32⟩
  | .local _ .vmem, ⟨2, _⟩ => ⟨S128x2048, .i32⟩
  | .local _ .vmem, ⟨3, _⟩ => ⟨S128x2048, .i32⟩
  | .local _ .vmem, ⟨4, _⟩ => ⟨S1x128x128, .f32⟩
  | .local _ .vmem, ⟨5, _⟩ => ⟨S1x128x128, .f32⟩
  | .local _ .vmem, ⟨6, _⟩ => ⟨S128x128, .f32⟩
  | _, _ => ⟨S2048x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_call1_v0 : Ref sig .tc := ⟨.hbm, 46, rfl⟩
abbrev main_call1_v1 : Ref sig .tc := ⟨.hbm, 47, rfl⟩
abbrev main_v30 : Ref sig .tc := ⟨.hbm, 48, rfl⟩
abbrev main_cst_11 : Ref sig .tc := ⟨.hbm, 49, rfl⟩
abbrev main_v31 : Ref sig .tc := ⟨.hbm, 50, rfl⟩
abbrev main_cst_12 : Ref sig .tc := ⟨.hbm, 51, rfl⟩
abbrev main_v32 : Ref sig .tc := ⟨.hbm, 52, rfl⟩
abbrev main_v33 : Ref sig .tc := ⟨.hbm, 53, rfl⟩
abbrev main_cst_13 : Ref sig .tc := ⟨.hbm, 54, rfl⟩
abbrev main_call2_v0 : Ref sig .tc := ⟨.hbm, 55, rfl⟩
abbrev main_call2_v1 : Ref sig .tc := ⟨.hbm, 56, rfl⟩
abbrev main_v34 : Ref sig .tc := ⟨.hbm, 57, rfl⟩
abbrev main_cst_14 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c : Ref sig .tc := ⟨.hbm, 62, rfl⟩
abbrev main_v38 : Ref sig .tc := ⟨.hbm, 63, rfl⟩
abbrev main_v39 : Ref sig .tc := ⟨.hbm, 64, rfl⟩
abbrev main_c_15 : Ref sig .tc := ⟨.hbm, 65, rfl⟩
abbrev main_v40 : Ref sig .tc := ⟨.hbm, 66, rfl⟩
abbrev main_v41 : Ref sig .tc := ⟨.hbm, 67, rfl⟩
abbrev main_c_16 : Ref sig .tc := ⟨.hbm, 68, rfl⟩
abbrev main_v42 : Ref sig .tc := ⟨.hbm, 69, rfl⟩
abbrev main_c_17 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_18 : Ref sig .tc := ⟨.hbm, 74, rfl⟩
abbrev main_v46 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c16_i32 : BitVec 32 := 16#32
  let v5 : BitVec 32 := Scalar.addi c0_i32_1 c16_i32
  let c1_i32 : BitVec 32 := 1#32
  ⟨c0_i32_1, v5, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg6 : BitVec 32 := Scf.iv c0_i32_1 c1_i32 k0_t1
  let c1_i32_4 : BitVec 32 := 1#32
  let v9 : BitVec 32 := Scalar.muli arg6 c1_i32_4
  let v10 : BitVec 32 := Scalar.addi c0_i32_5 v9
  let c8_i32 : BitVec 32 := 8#32
  let v11 : BitVec 32 := Scalar.muli v10 c8_i32
  v11
def k0_off1 (k0_t1 : Fin k0_t1_loop.trips) : Fin 2 → Nat :=
  let c0_i32_5 : BitVec 32 := 0#32
  let c0_i32_1 : BitVec 32 := 0#32
  let c1_i32 : BitVec 32 := 1#32
  let arg6 : BitVec 32 := Scf.iv c0_i32_1 c1_i32 k0_t1
  let c1_i32_4 : BitVec 32 := 1#32
  let v9 : BitVec 32 := Scalar.muli arg6 c1_i32_4
  let v10 : BitVec 32 := Scalar.addi c0_i32_5 v9
  let c8_i32 : BitVec 32 := 8#32
  let v11 : BitVec 32 := Scalar.muli v10 c8_i32
  let v12 : BitVec 32 := v11
  let v13 : Index := Scalar.indexCast v12
  let c0 : Index := 0#32
  ![v13.toNat, 0]
def k0_cond2 (i : grid0.Coords) : BitVec 1 :=
  let arg1 : BitVec 32 := BitVec.ofNat 32 (i 1).val
  let c7_i32 : BitVec 32 := 7#32
  let v6 : BitVec 1 := Scalar.cmpi .eq arg1 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S1x1x128_d2_w32 : S1x1x128.Iotas .tc 32 [2]
  h_S8x2048 : 0 < S8x2048.numel
  shapeCasts_S8x2048_S8x2048x1 : S8x2048.ShapeCasts S8x2048x1
  broadcasts_S8x2048x1_S8x2048x128 : S8x2048x1.Broadcasts S8x2048x128
  broadcasts_S1x1x128_S8x2048x128 : S1x1x128.Broadcasts S8x2048x128
  natLt_1_32 : 1 < 32
  bitsLt_bf16_f32 : FTy.bits .bf16 < FTy.bits .f32
  shapeCasts_S8x2048x128_S16384x128 : S8x2048x128.ShapeCasts S16384x128
  shapeCasts_S128x128_S1x128x128 : S128x128.ShapeCasts S1x128x128
  inb_S1x128x128_S1x128x128_0_0_0 : ∀ a, (![0, 0, 0] : Fin 3 → Nat) a + S1x128x128.size a ≤ S1x128x128.size a
  h_S1x128x128 : 0 < S1x128x128.numel
  reducesTo_S2x128x128_S128x128_d0 : S2x128x128.ReducesTo [0] S128x128
  h_S_ : 0 < S_.numel
  slices_S128x128_S65x65_0_0 : S128x128.Slices ![0, 0] S65x65
  reducesTo_S65x65_S65_d1 : S65x65.ReducesTo [1] S65
  reducesTo_S65x65_S65_d0 : S65x65.ReducesTo [0] S65
  slices_S65x65_S64x64_1_1 : S65x65.Slices ![1, 1] S64x64
  slices_S65_S64_1 : S65.Slices ![1] S64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S_S64 : S_.BroadcastsInDim S64 (![] : Fin 0 → Fin S64.rank)
  reducesTo_S64x64_S64_d1 : S64x64.ReducesTo [1] S64
  reducesTo_S64x64_S64_d0 : S64x64.ReducesTo [0] S64
  reducesTo_S64_S_d0 : S64.ReducesTo [0] S_
  dot_S16384x128_S16384x128_S128x128_0_0_1_1_n_n_wf : DotDims.WF S16384x128 S16384x128 S128x128 [0] [0] [1] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x2048.size a ≤ S128x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S2048x2048.size a
  hwx0_0 : ∀ i : grid0.Coords, EltTy.bits .i32 = 32 ∨ (Rect.block (s := S2048x2048) S128x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S2048x2048.size a
  hwx0_1 : ∀ i : grid0.Coords, EltTy.bits .i32 = 32 ∨ (Rect.block (s := S2048x2048) S128x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S2x128x128.size a
  hwx0_2 : ∀ i : grid0.Coords, EltTy.bits .f32 = 32 ∨ (Rect.block (s := S2x128x128) S1x128x128.size (cc0_transform_2 i) (hinb0_2 i)).WholeWords (EltTy.packing .f32)

variable [Facts₀]

def dot_S16384x128_S16384x128_S128x128_0_0_1_1_n_n : DotDims S16384x128 S16384x128 S128x128 where
  lhsContracting := [0]
  rhsContracting := [0]
  lhsNonContracting := [1]
  rhsNonContracting := [1]
  lhsBatch := []
  rhsBatch := []
  wf := dot_S16384x128_S16384x128_S128x128_0_0_1_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x2048 : Shape := ⟨2, ![2048, 2048]⟩
abbrev S4194304 : Shape := ⟨1, ![4194304]⟩
abbrev S_ : Shape := ⟨0, ![]⟩
abbrev S4225 : Shape := ⟨1, ![4225]⟩
abbrev S4194304x1 : Shape := ⟨2, ![4194304, 1]⟩
abbrev S65x65 : Shape := ⟨2, ![65, 65]⟩
abbrev S65 : Shape := ⟨1, ![65]⟩
abbrev S64x64 : Shape := ⟨2, ![64, 64]⟩
abbrev S64 : Shape := ⟨1, ![64]⟩
abbrev S64x1 : Shape := ⟨2, ![64, 1]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S2048x2048, .i32⟩
  | .hbm, ⟨1, _⟩ => ⟨S2048x2048, .i32⟩
  | .hbm, ⟨2, _⟩ => ⟨S4194304, .i32⟩
  | .hbm, ⟨3, _⟩ => ⟨S4194304, .i32⟩
  | .hbm, ⟨4, _⟩ => ⟨S_, .i32⟩
  | .hbm, ⟨5, _⟩ => ⟨S4194304, .i32⟩
  | .hbm, ⟨6, _⟩ => ⟨S4194304, .i32⟩
  | .hbm, ⟨7, _⟩ => ⟨S4194304, .i32⟩
  | .hbm, ⟨8, _⟩ => ⟨S_, .f32⟩
  | .hbm, ⟨9, _⟩ => ⟨S4194304, .f32⟩
  | .hbm, ⟨10, _⟩ => ⟨S_, .f32⟩
  | .hbm, ⟨11, _⟩ => ⟨S4225, .f32⟩
  | .hbm, ⟨12, _⟩ => ⟨S4194304x1, .i32⟩
  | .hbm, ⟨13, _⟩ => ⟨S4225, .f32⟩
  | .hbm, ⟨14, _⟩ => ⟨S65x65, .f32⟩
  | .hbm, ⟨15, _⟩ => ⟨S_, .f32⟩
  | .hbm, ⟨16, _⟩ => ⟨S65, .f32⟩
  | .hbm, ⟨17, _⟩ => ⟨S_, .f32⟩
  | .hbm, ⟨18, _⟩ => ⟨S65, .f32⟩
  | .hbm, ⟨19, _⟩ => ⟨S64x64, .f32⟩
  | .hbm, ⟨20, _⟩ => ⟨S64, .f32⟩
  | .hbm, ⟨21, _⟩ => ⟨S64x1, .f32⟩
  | .hbm, ⟨22, _⟩ => ⟨S64, .f32⟩
  | .hbm, ⟨23, _⟩ => ⟨S1x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x64, .i1⟩
  | .hbm, ⟨31, _⟩ => ⟨S_, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S_, .f32⟩
  | .hbm, ⟨36, _⟩ => ⟨S_, .f32⟩
  | .hbm, ⟨37, _⟩ => ⟨S64x64, .f32⟩
  | .hbm, ⟨38, _⟩ => ⟨S64x64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .i1⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .i1⟩
  | .hbm, ⟨47, _⟩ => ⟨S_, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S64, .i32⟩
  | .hbm, ⟨71, _⟩ => ⟨S_, .i32⟩
  | .hbm, ⟨72, _⟩ => ⟨S_, .i32⟩
  | .hbm, ⟨73, _⟩ => ⟨S64, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i1⟩
  | .hbm, ⟨79, _⟩ => ⟨S_, .i32⟩
  | .hbm, ⟨80, _⟩ => ⟨S_, .i32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S2048x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_call1_v0 : Ref sig .tc := ⟨.hbm, 55, rfl⟩
abbrev main_call1_v1 : Ref sig .tc := ⟨.hbm, 56, rfl⟩
abbrev main_v37 : Ref sig .tc := ⟨.hbm, 57, rfl⟩
abbrev main_cst_12 : Ref sig .tc := ⟨.hbm, 58, rfl⟩
abbrev main_v38 : Ref sig .tc := ⟨.hbm, 59, rfl⟩
abbrev main_cst_13 : Ref sig .tc := ⟨.hbm, 60, rfl⟩
abbrev main_v39 : Ref sig .tc := ⟨.hbm, 61, rfl⟩
abbrev main_v40 : Ref sig .tc := ⟨.hbm, 62, rfl⟩
abbrev main_cst_14 : Ref sig .tc := ⟨.hbm, 63, rfl⟩
abbrev main_call2_v0 : Ref sig .tc := ⟨.hbm, 64, rfl⟩
abbrev main_call2_v1 : Ref sig .tc := ⟨.hbm, 65, rfl⟩
abbrev main_v41 : Ref sig .tc := ⟨.hbm, 66, rfl⟩
abbrev main_cst_15 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_16 : Ref sig .tc := ⟨.hbm, 71, rfl⟩
abbrev main_v45 : Ref sig .tc := ⟨.hbm, 72, rfl⟩
abbrev main_v46 : Ref sig .tc := ⟨.hbm, 73, rfl⟩
abbrev main_c_17 : Ref sig .tc := ⟨.hbm, 74, rfl⟩
abbrev main_v47 : Ref sig .tc := ⟨.hbm, 75, rfl⟩
abbrev main_v48 : Ref sig .tc := ⟨.hbm, 76, rfl⟩
abbrev main_c_18 : Ref sig .tc := ⟨.hbm, 77, rfl⟩
abbrev main_v49 : Ref sig .tc := ⟨.hbm, 78, rfl⟩
abbrev main_c_19 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_20 : Ref sig .tc := ⟨.hbm, 83, rfl⟩
abbrev main_v53 : Ref sig .tc := ⟨.hbm, 84, rfl⟩

abbrev nD : Nat := 1
abbrev τ : Topo := Topo.v7x

variable {F : FTy → Type} [FloatOps F]

class Facts₀ : Prop where
  shapeCasts_S2048x2048_S4194304 : S2048x2048.ShapeCasts S4194304
  bcast_S_S4194304 : S_.BroadcastsInDim S4194304 (![] : Fin 0 → Fin S4194304.rank)
  bcast_S_S4225 : S_.BroadcastsInDim S4225 (![] : Fin 0 → Fin S4225.rank)
  bcast_S4194304_S4194304x1_0 : S4194304.BroadcastsInDim S4194304x1 (![0] : Fin 1 → Fin S4194304x1.rank)
  shapeCasts_S4225_S65x65 : S4225.ShapeCasts S65x65
  reducesTo_S65x65_S65_d1 : S65x65.ReducesTo [1] S65
  h_S_ : 0 < S_.numel
  reducesTo_S65x65_S65_d0 : S65x65.ReducesTo [0] S65
  slices_S65x65_S64x64_1_1 : S65x65.Slices ![1, 1] S64x64
  slices_S65_S64_1 : S65.Slices ![1] S64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S_S64 : S_.BroadcastsInDim S64 (![] : Fin 0 → Fin S64.rank)
  reducesTo_S64x64_S64_d1 : S64x64.ReducesTo [1] S64
  reducesTo_S64x64_S64_d0 : S64x64.ReducesTo [0] S64
  reducesTo_S64_S_d0 : S64.ReducesTo [0] S_
  natLt_1_32 : 1 < 32
  scatter_S4225_S4194304x1_S4194304_n_0_0_1_wf : ScatterDims.WF S4225 S4194304x1 S4194304 [] [0] [0] 1

variable [Facts₀]

def scatter_S4225_S4194304x1_S4194304_n_0_0_1 : ScatterDims S4225 S4194304x1 S4194304 where
  updateWindowDims := []
  insertedWindowDims := [0]
  scatterDimsToOperandDims := [0]
  indexVectorDim := 1
  wf := scatter_S4225_S4194304x1_S4194304_n_0_0_1_wf

class Facts : Prop extends Facts₀ where

variable [Facts]
-- ==== Proof.K.Entry.lean ====
/-
  The contents the kernel's (as printed) region is entered with, and the lines of the program that come after it.
  The region is the program's first statement, so it finds the launch contents.
-/
import proofs.«402470_j15049565405346_3_alg».proof.Proof.Gen.Kernel.Launch
import proofs.«402470_j15049565405346_3_alg».proof.Proof.Gen.Kernel.Points
import Idealize.ShloMosaic.Lib.Pipeline.FrameBody
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- Core c's buffer contents when the region is entered: the launch contents (no line comes before the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The stretches of lines after the region, in order. -/
abbrev tailOps : List (List (HloOp τ sig (Elt F))) :=
  [hostOps1, hostOps1_1, hostOps1_2, hostOps1_3, hostOps1_4, hostOps1_5, hostOps1_6, hostOps1_7]

theorem V_main_arg0 (c : Dev nD) : V m c main_arg0 = m ((c : Thread nD τ).loc main_arg0) := rfl
theorem V_main_arg1 (c : Dev nD) : V m c main_arg1 = m ((c : Thread nD τ).loc main_arg1) := rfl

end Cert.Kernel.Hand

end
-- ==== Proof.K.Kit.lean ====
/-
  What the runs of the kernel's (as printed) body are stated over.

  The grid is 2 × 8: sixteen points, point t at coordinates (t / 8, t % 8).  The body zeroes its accumulator where the
  second coordinate is 0 (t % 8 = 0), adds sixteen sub-block products into it at every point, and copies it into the
  result block where the second coordinate is 7 (t % 8 = 7); at the other points the result block's buffer is left
  alone and is not written back.  Both label images are fetched block by block at every point.
-/
import proofs.«402470_j15049565405346_3_alg».proof.Proof.K.Entry
import proofs.«402470_j15049565405346_3_alg».proof.Proof.Gen.Kernel.Skeleton
import proofs.«402470_j15049565405346_3_alg».proof.Proof.Gen.Kernel.Loops
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first image's staging buffer holds its block at every point, for any proof data over the region-entry arrays
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the second image. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every array of the region at what the proof data computes, and proof data over the
    region-entry arrays: both label images end as they were launched (an input array is never written back). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c)))⟩) h

/-! ## The body's two conditions, decided over the grid -/

/-- "The second grid coordinate is 0": the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "The second grid coordinate is 7": the accumulator is copied out. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last block of a half the result window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last block of a half it is live. -/
theorem liveAt0_2 : ∀ t : Fin cfg0.N, cond0_1 (grid0.coords t) → cfg0.idle 2 (grid0.coords t) = false := by decide +kernel

/-! ## The memrefs the body is called with -/

/-- One staging buffer of the result window, through which its contents are stated. -/
abbrev VO0_2 : View sig .tc .vmem S1x128x128 .f32 := (Memref.whole cc0_stg2_0 : Memref sig .tc .vmem S1x128x128 .f32).view
abbrev ms0_0 (t : Fin cfg0.N) : Memref sig .tc .vmem S128x2048 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S128x128 .f32 := Memref.whole cc0_scratch0
abbrev VS0_0 : View sig .tc .vmem S128x128 .f32 := scM0_0.view

/-- What the region's invariant holds besides the windows: the accumulator at some contents, and the generator
    register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The body at the first block of a half (second coordinate 0, not 7): the accumulator, whatever it held, is
  zero-filled and then takes the sixteen sub-block updates; the result block's buffer is handed back untouched.
  The pieces the accumulator ends with are found by running the body.
-/
import proofs.«402470_j15049565405346_3_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The accumulator's pieces (last first) at the first block of a half, with the body's run from whole memrefs:
    the images' buffers at their blocks, the result's at any contents handed back as they were, the accumulator at
    anything. -/
noncomputable def kernelRun0_A (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : cond0_0 i) (hc1 : ¬cond0_1 i)
    (x0 : Vec F S128x2048 .i32) (x1 : Vec F S128x2048 .i32) :
    Σ' (L2 : List (View.Piece (Elt F) S1x128x128 .f32)), { LS0 : List (View.Piece (Elt F) S128x128 .f32) //
      ∀ (xi2 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__hist_kernel i arg2 harg2 arg3 harg3 arg4 harg4 arg5 harg5) K } := by
  refine ⟨[], ?_, fun xi2 E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%ds, %fs0, %hfs0, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.RunB.lean ====
/-
  The body at a middle block of a half (second coordinate neither 0 nor 7): the accumulator, holding what the
  block before left, takes the sixteen sub-block updates; the result block's buffer is handed back untouched.
-/
import proofs.«402470_j15049565405346_3_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The accumulator's pieces at a middle block, over the contents xs0 it is entered with, with the body's run. -/
noncomputable def kernelRun0_B (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : ¬cond0_1 i)
    (x0 : Vec F S128x2048 .i32) (x1 : Vec F S128x2048 .i32) (xs0 : Vec F S128x128 .f32) :
    Σ' (L2 : List (View.Piece (Elt F) S1x128x128 .f32)), { LS0 : List (View.Piece (Elt F) S128x128 .f32) //
      ∀ (xi2 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__hist_kernel i arg2 harg2 arg3 harg3 arg4 harg4 arg5 harg5) K } := by
  refine ⟨[], ?_, fun xi2 E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.RunC.lean ====
/-
  The body at the last block of a half (second coordinate 7, not 0): the accumulator, holding what the block before
  left, takes the sixteen sub-block updates and is then copied whole into the result block's buffer.
-/
import proofs.«402470_j15049565405346_3_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The result block's pieces and the accumulator's at the last block, over the contents xs0 the accumulator is
    entered with, with the body's run: the result's buffer at anything. -/
noncomputable def kernelRun0_C (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i)
    (x0 : Vec F S128x2048 .i32) (x1 : Vec F S128x2048 .i32) (xs0 : Vec F S128x128 .f32) :
    Σ' (L2 : List (View.Piece (Elt F) S1x128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__hist_kernel i arg2 harg2 arg3 harg3 arg4 harg4 arg5 harg5) K } := by
  refine ⟨?_, ?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, %hf2, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.Kernel.Hand

end
-- ==== Proof.K.Tail.lean ====
/-
  The lines of the kernel's (as printed) program after its one region: the region is entered first, so the contents it
  finds are the launch contents; the lines after it read the region's result array and write buffers of their own.
-/
import proofs.«402470_j15049565405346_3_alg».proof.Proof.K.Entry
import Idealize.ShloMosaic.Lib.Pipeline.FrameBody
import Idealize.ShloMosaic.Lib.Pipeline.FrameSuffix
import Idealize.ShloMosaic.Lib.StableHlo.Run

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ### Per stretch: nothing is allocated, and no array of the region is written -/

private theorem hostOps1_fresh : (hostOps1 : List (HloOp τ sig (Elt F))).Forall fun op => op.fresh = ∅ := by
  simp only [List.Forall]; repeat' constructor

private theorem hostOps1_1_fresh : (hostOps1_1 : List (HloOp τ sig (Elt F))).Forall fun op => op.fresh = ∅ := by
  simp only [List.Forall]; repeat' constructor

private theorem hostOps1_2_fresh : (hostOps1_2 : List (HloOp τ sig (Elt F))).Forall fun op => op.fresh = ∅ := by
  simp only [List.Forall]; repeat' constructor

private theorem hostOps1_3_fresh : (hostOps1_3 : List (HloOp τ sig (Elt F))).Forall fun op => op.fresh = ∅ := by
  simp only [List.Forall]; repeat' constructor

private theorem hostOps1_4_fresh : (hostOps1_4 : List (HloOp τ sig (Elt F))).Forall fun op => op.fresh = ∅ := by
  simp only [List.Forall]; repeat' constructor

private theorem hostOps1_5_fresh : (hostOps1_5 : List (HloOp τ sig (Elt F))).Forall fun op => op.fresh = ∅ := by
  simp only [List.Forall]; repeat' constructor

private theorem hostOps1_6_fresh : (hostOps1_6 : List (HloOp τ sig (Elt F))).Forall fun op => op.fresh = ∅ := by
  simp only [List.Forall]; repeat' constructor

private theorem hostOps1_7_fresh : (hostOps1_7 : List (HloOp τ sig (Elt F))).Forall fun op => op.fresh = ∅ := by
  simp only [List.Forall]; repeat' constructor

/-- Every line of this stretch writes its own result buffer, which is none of the region's three arrays. -/
private theorem hostOps1_keeps : ∀ op ∈ (hostOps1 : List (HloOp τ sig (Elt F))),
    ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Every line of this stretch writes its own result buffer, which is none of the region's three arrays. -/
private theorem hostOps1_1_keeps : ∀ op ∈ (hostOps1_1 : List (HloOp τ sig (Elt F))),
    ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Every line of this stretch writes its own result buffer, which is none of the region's three arrays. -/
private theorem hostOps1_2_keeps : ∀ op ∈ (hostOps1_2 : List (HloOp τ sig (Elt F))),
    ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Every line of this stretch writes its own result buffer, which is none of the region's three arrays. -/
private theorem hostOps1_3_keeps : ∀ op ∈ (hostOps1_3 : List (HloOp τ sig (Elt F))),
    ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Every line of this stretch writes its own result buffer, which is none of the region's three arrays. -/
private theorem hostOps1_4_keeps : ∀ op ∈ (hostOps1_4 : List (HloOp τ sig (Elt F))),
    ∀ w, Proc.devRef .tc (Pipeline.arrRef spec0 w) ∉ op.writes := by
  intro op hop
  simp only [hostOps1_4, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Every line of this stretch writes its own result buffer, which is none of the region's three arrays. -/
private theorem hostOps1_5_keeps : ∀ op ∈ (hostOps1_5 : List (HloOp τ sig (Elt F))),
    ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Every line of this stretch writes its own result buffer, which is none of the region's three arrays. -/
private theorem hostOps1_6_keeps : ∀ op ∈ (hostOps1_6 : List (HloOp τ sig (Elt F))),
    ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Every line of this stretch writes its own result buffer, which is none of the region's three arrays. -/
private theorem hostOps1_7_keeps : ∀ op ∈ (hostOps1_7 : List (HloOp τ sig (Elt F))),
    ∀ w, Proc.devRef .tc (Pipeline.arrRef spec0 w) ∉ op.writes := by
  intro op hop
  simp only [hostOps1_7, List.mem_cons, List.mem_nil_iff, or_false] at hop
  rcases hop with rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- The program is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later lines touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop

/-- And write none of the region's arrays. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop

end Cert.Kernel.Hand

end
-- ==== Proof.K.Frame.lean ====
/-
  The frame run of the kernel's (as printed) program.

  What the accumulator holds after each grid point is defined by recursion on the point: at the first block of a
  half the pieces of the zero fill and the sixteen updates read back; at a later block the sixteen updates over what
  the block before left.  The result block's buffer holds, at the last block of a half, the copy of the accumulator,
  and is idle elsewhere.  With these the body meets the library's obligation at every point, and the launch theorem
  for a region followed by host lines gives the run: every array ends at what the proof data says, every buffer the
  later lines write at what they compute.
-/
import proofs.«402470_j15049565405346_3_alg».proof.Proof.K.RunC
import proofs.«402470_j15049565405346_3_alg».proof.Proof.K.Tail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Where the body stores nothing into the result block's buffer: a placeholder nothing consults. -/
def outIdle : Vec F S1x128x128 .f32 := VO0_2.read (Elt F) VO0_2.junk

/-- The accumulator's pieces at the first block of a half cover it (the zero fill alone does). -/
theorem scover0_A (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : cond0_0 i) (hc1 : ¬cond0_1 i)
    (x0 x1 : Vec F S128x2048 .i32) (y : S128x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S128x128.size (by sl_kernel_rfl) y

/-- What the first block of a half leaves in the accumulator. -/
def sout0_A (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : cond0_0 i) (hc1 : ¬cond0_1 i)
    (x0 x1 : Vec F S128x2048 .i32) : Vec F S128x128 .f32 :=
  VS0_0.read (Elt F) (VS0_0.writes (Elt F) VS0_0.junk (kernelRun0_A c i arg2 harg2 arg3 harg3 arg4 harg4 arg5 harg5 hc0 hc1 x0 x1).2.1)

theorem scover0_B (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : ¬cond0_1 i)
    (x0 x1 : Vec F S128x2048 .i32) (xs0 : Vec F S128x128 .f32) (y : S128x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S128x128.size (by sl_kernel_rfl) y

/-- What a middle block leaves in the accumulator, over what it found. -/
def sout0_B (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : ¬cond0_1 i)
    (x0 x1 : Vec F S128x2048 .i32) (xs0 : Vec F S128x128 .f32) : Vec F S128x128 .f32 :=
  VS0_0.read (Elt F) (VS0_0.writes (Elt F) VS0_0.junk (kernelRun0_B c i arg2 harg2 arg3 harg3 arg4 harg4 arg5 harg5 hc0 hc1 x0 x1 xs0).2.1)

theorem scover0_C (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i)
    (x0 x1 : Vec F S128x2048 .i32) (xs0 : Vec F S128x128 .f32) (y : S128x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S128x128.size (by sl_kernel_rfl) y

/-- What the last block of a half leaves in the accumulator, over what it found. -/
def sout0_C (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i)
    (x0 x1 : Vec F S128x2048 .i32) (xs0 : Vec F S128x128 .f32) : Vec F S128x128 .f32 :=
  VS0_0.read (Elt F) (VS0_0.writes (Elt F) VS0_0.junk (kernelRun0_C c i arg2 harg2 arg3 harg3 arg4 harg4 arg5 harg5 hc0 hc1 x0 x1 xs0).2.1)

theorem cover0_C (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i)
    (x0 x1 : Vec F S128x2048 .i32) (xs0 : Vec F S128x128 .f32) (y : S1x128x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x128x128.size (by sl_kernel_rfl) y

/-- What the last block of a half leaves in the result block's buffer. -/
def out0_C (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i)
    (x0 x1 : Vec F S128x2048 .i32) (xs0 : Vec F S128x128 .f32) : Vec F S1x128x128 .f32 :=
  VO0_2.read (Elt F) (VO0_2.writes (Elt F) VO0_2.junk (kernelRun0_C c i arg2 harg2 arg3 harg3 arg4 harg4 arg5 harg5 hc0 hc1 x0 x1 xs0).1)

/-! ## Point by point -/

theorem notC_of_A (t : Fin cfg0.N) (h0 : t.val % 8 = 0) : ¬cond0_1 (grid0.coords t) := fun h => by
  have := (hcond0_1 t).mp h; omega

/-- What the result block's buffer and the accumulator hold after the body at position n: the case the closed forms
    select, run at the point's memrefs and blocks, over what the position before left in the accumulator. -/
def outsAt0 (c : Dev nD) : (n : ℕ) → n < cfg0.N → Vec F S1x128x128 .f32 × Vec F S128x128 .f32
  | 0, hn => (outIdle, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (notC_of_A ⟨0, hn⟩ (Nat.zero_mod _)) (iblk m c 0 ⟨0, hn⟩) (iblk m c 1 ⟨0, hn⟩))
  | n + 1, hn =>
    if h0 : (n + 1) % 8 = 0 then
      (outIdle, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (notC_of_A ⟨n + 1, hn⟩ h0) (iblk m c 0 ⟨n + 1, hn⟩) (iblk m c 1 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (outIdle, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) :
    outsAt0 m c t.val t.isLt = (outIdle, sout0_A c (grid0.coords t) (ms0_0 t) (hs0_0 t) (ms0_1 t) (hs0_1 t) (ms0_2 t) (hs0_2 t) scM0_0 (Memref.isWhole_whole _) ((hcond0_0 t).mpr h0) (notC_of_A t h0) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 m c t.val t.isLt = (outIdle, sout0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the accumulator at anything; afterwards at what
    the point before left; and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body at point t each image's buffer at its block and the result
    block's at outsAt0; the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the images' buffers hold their blocks; the closed forms say which case the point is in; the
    invariant hands the body the accumulator at what the point before left (at anything at the very first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · have hc1 : ¬cond0_1 (grid0.coords t) := notC_of_A t h0
    rw [Dat.leavesExact_idle (dats m 0 c) 2 t (idleAt0_2 t hc1) (noFlush0_2 t hc1)]
    rw [outsAt0_A m c t h0]
    unfold sout0_A; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) ((hcond0_0 t).mpr h0) hc1 (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) ((hcond0_0 t).mpr h0) hc1 (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _)
        iexact Hg
      isplitl [Ho]; · iexact Ho
      isplitl [H0]; · iexact H0
      isplitl [H1]; · iexact H1
      iexists _; iexact H2
  · have hz : t.val ≠ 0 := fun hz => h0 (by rw [hz])
    have hc0 : ¬cond0_0 (grid0.coords t) := fun h => h0 ((hcond0_0 t).mp h)
    by_cases h1 : t.val % 8 = 7
    · have hc1 : cond0_1 (grid0.coords t) := (hcond0_1 t).mpr h1
      rw [show (dats m 0 c).leavesExact 2 t = owns (c : Thread nD τ) (ms0_2 t) fullShare ((dats m 0 c).after 2 t) from by
        unfold Dat.leavesExact; rw [liveAt0_2 t hc1], after0_2]
      rw [outsAt0_C m c t h0 h1]
      unfold out0_C sout0_C; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0_0 (Memref.isWhole_whole _) hc0 hc1 (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · have hc1 : ¬cond0_1 (grid0.coords t) := fun h => h1 ((hcond0_1 t).mp h)
      rw [Dat.leavesExact_idle (dats m 0 c) 2 t (idleAt0_2 t hc1) (noFlush0_2 t hc1)]
      rw [outsAt0_B m c t h0 h1]
      unfold sout0_B; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0_0 (Memref.isWhole_whole _) hc0 hc1 (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of the program terminates, and every final state has every array of the region at
    what the proof data computes and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: both label images end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Entry.lean ====
/-
  The contents the idealized kernel's region is entered with, and the lines of the program that come after it.
  The region is the program's first statement, so it finds the launch contents.
-/
import proofs.«402470_j15049565405346_3_alg».proof.Proof.Gen.KernelIdeal.Launch
import proofs.«402470_j15049565405346_3_alg».proof.Proof.Gen.KernelIdeal.Points
import Idealize.ShloMosaic.Lib.Pipeline.FrameBody
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- Core c's buffer contents when the region is entered: the launch contents (no line comes before the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The stretches of lines after the region, in order. -/
abbrev tailOps : List (List (HloOp τ sig (Elt F))) :=
  [hostOps1, hostOps1_1, hostOps1_2, hostOps1_3, hostOps1_4, hostOps1_5, hostOps1_6, hostOps1_7]

theorem V_main_arg0 (c : Dev nD) : V m c main_arg0 = m ((c : Thread nD τ).loc main_arg0) := rfl
theorem V_main_arg1 (c : Dev nD) : V m c main_arg1 = m ((c : Thread nD τ).loc main_arg1) := rfl

end Cert.KernelIdeal.Hand

end
-- ==== Proof.KI.Kit.lean ====
/-
  What the runs of the idealized kernel's body are stated over.

  The grid is 2 × 8: sixteen points, point t at coordinates (t / 8, t % 8).  The body zeroes its accumulator where the
  second coordinate is 0 (t % 8 = 0), adds sixteen sub-block products into it at every point, and copies it into the
  result block where the second coordinate is 7 (t % 8 = 7); at the other points the result block's buffer is left
  alone and is not written back.  Both label images are fetched block by block at every point.
-/
import proofs.«402470_j15049565405346_3_alg».proof.Proof.KI.Entry
import proofs.«402470_j15049565405346_3_alg».proof.Proof.Gen.KernelIdeal.Skeleton
import proofs.«402470_j15049565405346_3_alg».proof.Proof.Gen.KernelIdeal.Loops
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first image's staging buffer holds its block at every point, for any proof data over the region-entry arrays
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the second image. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every array of the region at what the proof data computes, and proof data over the
    region-entry arrays: both label images end as they were launched (an input array is never written back). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c)))⟩) h

/-! ## The body's two conditions, decided over the grid -/

/-- "The second grid coordinate is 0": the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "The second grid coordinate is 7": the accumulator is copied out. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last block of a half the result window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last block of a half it is live. -/
theorem liveAt0_2 : ∀ t : Fin cfg0.N, cond0_1 (grid0.coords t) → cfg0.idle 2 (grid0.coords t) = false := by decide +kernel

/-! ## The memrefs the body is called with -/

/-- One staging buffer of the result window, through which its contents are stated. -/
abbrev VO0_2 : View sig .tc .vmem S1x128x128 .f32 := (Memref.whole cc0_stg2_0 : Memref sig .tc .vmem S1x128x128 .f32).view
abbrev ms0_0 (t : Fin cfg0.N) : Memref sig .tc .vmem S128x2048 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S128x128 .f32 := Memref.whole cc0_scratch0
abbrev VS0_0 : View sig .tc .vmem S128x128 .f32 := scM0_0.view

/-- What the region's invariant holds besides the windows: the accumulator at some contents, and the generator
    register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The body at the first block of a half (second coordinate 0, not 7): the accumulator, whatever it held, is
  zero-filled and then takes the sixteen sub-block updates; the result block's buffer is handed back untouched.
  The pieces the accumulator ends with are found by running the body.
-/
import proofs.«402470_j15049565405346_3_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The accumulator's pieces (last first) at the first block of a half, with the body's run from whole memrefs:
    the images' buffers at their blocks, the result's at any contents handed back as they were, the accumulator at
    anything. -/
noncomputable def kernelRun0_A (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : cond0_0 i) (hc1 : ¬cond0_1 i)
    (x0 : Vec F S128x2048 .i32) (x1 : Vec F S128x2048 .i32) :
    Σ' (L2 : List (View.Piece (Elt F) S1x128x128 .f32)), { LS0 : List (View.Piece (Elt F) S128x128 .f32) //
      ∀ (xi2 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__hist_kernel i arg2 harg2 arg3 harg3 arg4 harg4 arg5 harg5) K } := by
  refine ⟨[], ?_, fun xi2 E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%ds, %fs0, %hfs0, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.RunB.lean ====
/-
  The body at a middle block of a half (second coordinate neither 0 nor 7): the accumulator, holding what the
  block before left, takes the sixteen sub-block updates; the result block's buffer is handed back untouched.
-/
import proofs.«402470_j15049565405346_3_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The accumulator's pieces at a middle block, over the contents xs0 it is entered with, with the body's run. -/
noncomputable def kernelRun0_B (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : ¬cond0_1 i)
    (x0 : Vec F S128x2048 .i32) (x1 : Vec F S128x2048 .i32) (xs0 : Vec F S128x128 .f32) :
    Σ' (L2 : List (View.Piece (Elt F) S1x128x128 .f32)), { LS0 : List (View.Piece (Elt F) S128x128 .f32) //
      ∀ (xi2 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__hist_kernel i arg2 harg2 arg3 harg3 arg4 harg4 arg5 harg5) K } := by
  refine ⟨[], ?_, fun xi2 E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.RunC.lean ====
/-
  The body at the last block of a half (second coordinate 7, not 0): the accumulator, holding what the block before
  left, takes the sixteen sub-block updates and is then copied whole into the result block's buffer.
-/
import proofs.«402470_j15049565405346_3_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The result block's pieces and the accumulator's at the last block, over the contents xs0 the accumulator is
    entered with, with the body's run: the result's buffer at anything. -/
noncomputable def kernelRun0_C (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i)
    (x0 : Vec F S128x2048 .i32) (x1 : Vec F S128x2048 .i32) (xs0 : Vec F S128x128 .f32) :
    Σ' (L2 : List (View.Piece (Elt F) S1x128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__hist_kernel i arg2 harg2 arg3 harg3 arg4 harg4 arg5 harg5) K } := by
  refine ⟨?_, ?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, %hf2, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.KernelIdeal.Hand

end
-- ==== Proof.KI.Tail.lean ====
/-
  The lines of the idealized kernel's program after its one region: the region is entered first, so the contents it
  finds are the launch contents; the lines after it read the region's result array and write buffers of their own.
-/
import proofs.«402470_j15049565405346_3_alg».proof.Proof.KI.Entry
import Idealize.ShloMosaic.Lib.Pipeline.FrameBody
import Idealize.ShloMosaic.Lib.Pipeline.FrameSuffix
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ### Per stretch: nothing is allocated, and no array of the region is written -/

private theorem hostOps1_fresh : (hostOps1 : List (HloOp τ sig (Elt F))).Forall fun op => op.fresh = ∅ := by
  simp only [List.Forall]; repeat' constructor

private theorem hostOps1_1_fresh : (hostOps1_1 : List (HloOp τ sig (Elt F))).Forall fun op => op.fresh = ∅ := by
  simp only [List.Forall]; repeat' constructor

private theorem hostOps1_2_fresh : (hostOps1_2 : List (HloOp τ sig (Elt F))).Forall fun op => op.fresh = ∅ := by
  simp only [List.Forall]; repeat' constructor

private theorem hostOps1_3_fresh : (hostOps1_3 : List (HloOp τ sig (Elt F))).Forall fun op => op.fresh = ∅ := by
  simp only [List.Forall]; repeat' constructor

private theorem hostOps1_4_fresh : (hostOps1_4 : List (HloOp τ sig (Elt F))).Forall fun op => op.fresh = ∅ := by
  simp only [List.Forall]; repeat' constructor

private theorem hostOps1_5_fresh : (hostOps1_5 : List (HloOp τ sig (Elt F))).Forall fun op => op.fresh = ∅ := by
  simp only [List.Forall]; repeat' constructor

private theorem hostOps1_6_fresh : (hostOps1_6 : List (HloOp τ sig (Elt F))).Forall fun op => op.fresh = ∅ := by
  simp only [List.Forall]; repeat' constructor

private theorem hostOps1_7_fresh : (hostOps1_7 : List (HloOp τ sig (Elt F))).Forall fun op => op.fresh = ∅ := by
  simp only [List.Forall]; repeat' constructor

/-- Every line of this stretch writes its own result buffer, which is none of the region's three arrays. -/
private theorem hostOps1_keeps : ∀ op ∈ (hostOps1 : List (HloOp τ sig (Elt F))),
    ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Every line of this stretch writes its own result buffer, which is none of the region's three arrays. -/
private theorem hostOps1_1_keeps : ∀ op ∈ (hostOps1_1 : List (HloOp τ sig (Elt F))),
    ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Every line of this stretch writes its own result buffer, which is none of the region's three arrays. -/
private theorem hostOps1_2_keeps : ∀ op ∈ (hostOps1_2 : List (HloOp τ sig (Elt F))),
    ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Every line of this stretch writes its own result buffer, which is none of the region's three arrays. -/
private theorem hostOps1_3_keeps : ∀ op ∈ (hostOps1_3 : List (HloOp τ sig (Elt F))),
    ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Every line of this stretch writes its own result buffer, which is none of the region's three arrays. -/
private theorem hostOps1_4_keeps : ∀ op ∈ (hostOps1_4 : List (HloOp τ sig (Elt F))),
    ∀ w, Proc.devRef .tc (Pipeline.arrRef spec0 w) ∉ op.writes := by
  intro op hop
  simp only [hostOps1_4, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Every line of this stretch writes its own result buffer, which is none of the region's three arrays. -/
private theorem hostOps1_5_keeps : ∀ op ∈ (hostOps1_5 : List (HloOp τ sig (Elt F))),
    ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Every line of this stretch writes its own result buffer, which is none of the region's three arrays. -/
private theorem hostOps1_6_keeps : ∀ op ∈ (hostOps1_6 : List (HloOp τ sig (Elt F))),
    ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Every line of this stretch writes its own result buffer, which is none of the region's three arrays. -/
private theorem hostOps1_7_keeps : ∀ op ∈ (hostOps1_7 : List (HloOp τ sig (Elt F))),
    ∀ w, Proc.devRef .tc (Pipeline.arrRef spec0 w) ∉ op.writes := by
  intro op hop
  simp only [hostOps1_7, List.mem_cons, List.mem_nil_iff, or_false] at hop
  rcases hop with rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- The program is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later lines touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop

/-- And write none of the region's arrays. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop

end Cert.KernelIdeal.Hand

end
-- ==== Proof.KI.Frame.lean ====
/-
  The frame run of the idealized kernel's program.

  What the accumulator holds after each grid point is defined by recursion on the point: at the first block of a
  half the pieces of the zero fill and the sixteen updates read back; at a later block the sixteen updates over what
  the block before left.  The result block's buffer holds, at the last block of a half, the copy of the accumulator,
  and is idle elsewhere.  With these the body meets the library's obligation at every point, and the launch theorem
  for a region followed by host lines gives the run: every array ends at what the proof data says, every buffer the
  later lines write at what they compute.
-/
import proofs.«402470_j15049565405346_3_alg».proof.Proof.KI.RunC
import proofs.«402470_j15049565405346_3_alg».proof.Proof.KI.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Where the body stores nothing into the result block's buffer: a placeholder nothing consults. -/
def outIdle : Vec F S1x128x128 .f32 := VO0_2.read (Elt F) VO0_2.junk

/-- The accumulator's pieces at the first block of a half cover it (the zero fill alone does). -/
theorem scover0_A (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : cond0_0 i) (hc1 : ¬cond0_1 i)
    (x0 x1 : Vec F S128x2048 .i32) (y : S128x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S128x128.size (by sl_kernel_rfl) y

/-- What the first block of a half leaves in the accumulator. -/
def sout0_A (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : cond0_0 i) (hc1 : ¬cond0_1 i)
    (x0 x1 : Vec F S128x2048 .i32) : Vec F S128x128 .f32 :=
  VS0_0.read (Elt F) (VS0_0.writes (Elt F) VS0_0.junk (kernelRun0_A c i arg2 harg2 arg3 harg3 arg4 harg4 arg5 harg5 hc0 hc1 x0 x1).2.1)

theorem scover0_B (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : ¬cond0_1 i)
    (x0 x1 : Vec F S128x2048 .i32) (xs0 : Vec F S128x128 .f32) (y : S128x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S128x128.size (by sl_kernel_rfl) y

/-- What a middle block leaves in the accumulator, over what it found. -/
def sout0_B (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : ¬cond0_1 i)
    (x0 x1 : Vec F S128x2048 .i32) (xs0 : Vec F S128x128 .f32) : Vec F S128x128 .f32 :=
  VS0_0.read (Elt F) (VS0_0.writes (Elt F) VS0_0.junk (kernelRun0_B c i arg2 harg2 arg3 harg3 arg4 harg4 arg5 harg5 hc0 hc1 x0 x1 xs0).2.1)

theorem scover0_C (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i)
    (x0 x1 : Vec F S128x2048 .i32) (xs0 : Vec F S128x128 .f32) (y : S128x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S128x128.size (by sl_kernel_rfl) y

/-- What the last block of a half leaves in the accumulator, over what it found. -/
def sout0_C (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i)
    (x0 x1 : Vec F S128x2048 .i32) (xs0 : Vec F S128x128 .f32) : Vec F S128x128 .f32 :=
  VS0_0.read (Elt F) (VS0_0.writes (Elt F) VS0_0.junk (kernelRun0_C c i arg2 harg2 arg3 harg3 arg4 harg4 arg5 harg5 hc0 hc1 x0 x1 xs0).2.1)

theorem cover0_C (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i)
    (x0 x1 : Vec F S128x2048 .i32) (xs0 : Vec F S128x128 .f32) (y : S1x128x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x128x128.size (by sl_kernel_rfl) y

/-- What the last block of a half leaves in the result block's buffer. -/
def out0_C (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i)
    (x0 x1 : Vec F S128x2048 .i32) (xs0 : Vec F S128x128 .f32) : Vec F S1x128x128 .f32 :=
  VO0_2.read (Elt F) (VO0_2.writes (Elt F) VO0_2.junk (kernelRun0_C c i arg2 harg2 arg3 harg3 arg4 harg4 arg5 harg5 hc0 hc1 x0 x1 xs0).1)

/-! ## Point by point -/

theorem notC_of_A (t : Fin cfg0.N) (h0 : t.val % 8 = 0) : ¬cond0_1 (grid0.coords t) := fun h => by
  have := (hcond0_1 t).mp h; omega

/-- What the result block's buffer and the accumulator hold after the body at position n: the case the closed forms
    select, run at the point's memrefs and blocks, over what the position before left in the accumulator. -/
def outsAt0 (c : Dev nD) : (n : ℕ) → n < cfg0.N → Vec F S1x128x128 .f32 × Vec F S128x128 .f32
  | 0, hn => (outIdle, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (notC_of_A ⟨0, hn⟩ (Nat.zero_mod _)) (iblk m c 0 ⟨0, hn⟩) (iblk m c 1 ⟨0, hn⟩))
  | n + 1, hn =>
    if h0 : (n + 1) % 8 = 0 then
      (outIdle, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (notC_of_A ⟨n + 1, hn⟩ h0) (iblk m c 0 ⟨n + 1, hn⟩) (iblk m c 1 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (outIdle, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) :
    outsAt0 m c t.val t.isLt = (outIdle, sout0_A c (grid0.coords t) (ms0_0 t) (hs0_0 t) (ms0_1 t) (hs0_1 t) (ms0_2 t) (hs0_2 t) scM0_0 (Memref.isWhole_whole _) ((hcond0_0 t).mpr h0) (notC_of_A t h0) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 m c t.val t.isLt = (outIdle, sout0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the accumulator at anything; afterwards at what
    the point before left; and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body at point t each image's buffer at its block and the result
    block's at outsAt0; the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the images' buffers hold their blocks; the closed forms say which case the point is in; the
    invariant hands the body the accumulator at what the point before left (at anything at the very first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · have hc1 : ¬cond0_1 (grid0.coords t) := notC_of_A t h0
    rw [Dat.leavesExact_idle (dats m 0 c) 2 t (idleAt0_2 t hc1) (noFlush0_2 t hc1)]
    rw [outsAt0_A m c t h0]
    unfold sout0_A; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) ((hcond0_0 t).mpr h0) hc1 (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) ((hcond0_0 t).mpr h0) hc1 (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _)
        iexact Hg
      isplitl [Ho]; · iexact Ho
      isplitl [H0]; · iexact H0
      isplitl [H1]; · iexact H1
      iexists _; iexact H2
  · have hz : t.val ≠ 0 := fun hz => h0 (by rw [hz])
    have hc0 : ¬cond0_0 (grid0.coords t) := fun h => h0 ((hcond0_0 t).mp h)
    by_cases h1 : t.val % 8 = 7
    · have hc1 : cond0_1 (grid0.coords t) := (hcond0_1 t).mpr h1
      rw [show (dats m 0 c).leavesExact 2 t = owns (c : Thread nD τ) (ms0_2 t) fullShare ((dats m 0 c).after 2 t) from by
        unfold Dat.leavesExact; rw [liveAt0_2 t hc1], after0_2]
      rw [outsAt0_C m c t h0 h1]
      unfold out0_C sout0_C; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0_0 (Memref.isWhole_whole _) hc0 hc1 (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · have hc1 : ¬cond0_1 (grid0.coords t) := fun h => h1 ((hcond0_1 t).mp h)
      rw [Dat.leavesExact_idle (dats m 0 c) 2 t (idleAt0_2 t hc1) (noFlush0_2 t hc1)]
      rw [outsAt0_B m c t h0 h1]
      unfold sout0_B; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0_0 (Memref.isWhole_whole _) hc0 hc1 (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of the program terminates, and every final state has every array of the region at
    what the proof data computes and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: both label images end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.TailFn.lean ====
/-
  What both programs do with the confusion matrix.

  From the [65 × 65] matrix X of co-occurrence counts: row sums and column sums (the areas of each label in the two
  images), dropped of the background label 0; the union of instances i and j as area + area − intersection; the
  intersection over union where the union is positive, else 0; for every instance present in one image the best
  overlap with an instance of the other; the sum of 1 − best over the present instances of both images, divided by
  their number (1 when there is none), and 0 when no instance is present.  The reference applies exactly these
  lines to its scattered histogram, the kernel's program to the sum of its two partial histograms.
-/
import proofs.«402470_j15049565405346_3_alg».proof.ReferenceIdeal
import proofs.«402470_j15049565405346_3_alg».proof.Proof.Gen.ReferenceIdeal

noncomputable section

namespace Cert.RefSide

open Cert.ReferenceIdeal Cert.ReferenceIdeal.Gen
open Idealize.ShloMosaic Idealize.SL.Sem

variable {F : FTy → Type} [FloatOps F]

set_option maxRecDepth 8192 in
/-- The score as a function of the confusion matrix. -/
def tailR (X : FVec F S65x65 .f32) : FVec F S_ .f32 :=
  select (cmpi .sgt (addi (Host.reduce IntOp.addi (extui 32 (cmpf (F := F) .ogt (extractStridedSlice S64 ![1] (Host.reduceAdd X (constant S_ .f32 0x00000000#32) reducesTo_S65x65_S65_d1 h_S_) slices_S65_S64_1) (broadcastInDim S64 ![] bcast_S_S64 (constant S_ .f32 0x00000000#32))) natLt_1_32) (constantI S_ 32 0#32) reducesTo_S64_S_d0 h_S_) (Host.reduce IntOp.addi (extui 32 (cmpf (F := F) .ogt (extractStridedSlice S64 ![1] (Host.reduceAdd X (constant S_ .f32 0x00000000#32) reducesTo_S65x65_S65_d0 h_S_) slices_S65_S64_1) (broadcastInDim S64 ![] bcast_S_S64 (constant S_ .f32 0x00000000#32))) natLt_1_32) (constantI S_ 32 0#32) reducesTo_S64_S_d0 h_S_)) (constantI S_ 32 0#32)) (Host.divf (addf (Host.reduceAdd (select (cmpf (F := F) .ogt (extractStridedSlice S64 ![1] (Host.reduceAdd X (constant S_ .f32 0x00000000#32) reducesTo_S65x65_S65_d1 h_S_) slices_S65_S64_1) (broadcastInDim S64 ![] bcast_S_S64 (constant S_ .f32 0x00000000#32))) (subf (broadcastInDim S64 ![] bcast_S_S64 (constant S_ .f32 0x3F800000#32)) (Host.reduce FloatOps.maximumf (select (cmpf (F := F) .ogt (subf (addf (broadcastInDim S64x64 ![0, 1] bcast_S64x1_S64x64_0_1 (broadcastInDim S64x1 ![0] bcast_S64_S64x1_0 (extractStridedSlice S64 ![1] (Host.reduceAdd X (constant S_ .f32 0x00000000#32) reducesTo_S65x65_S65_d1 h_S_) slices_S65_S64_1))) (broadcastInDim S64x64 ![0, 1] bcast_S1x64_S64x64_0_1 (broadcastInDim S1x64 ![1] bcast_S64_S1x64_1 (extractStridedSlice S64 ![1] (Host.reduceAdd X (constant S_ .f32 0x00000000#32) reducesTo_S65x65_S65_d0 h_S_) slices_S65_S64_1)))) (extractStridedSlice S64x64 ![1, 1] X slices_S65x65_S64x64_1_1)) (broadcastInDim S64x64 ![] bcast_S_S64x64 (constant S_ .f32 0x00000000#32))) (Host.divf (extractStridedSlice S64x64 ![1, 1] X slices_S65x65_S64x64_1_1) (maximumf (subf (addf (broadcastInDim S64x64 ![0, 1] bcast_S64x1_S64x64_0_1 (broadcastInDim S64x1 ![0] bcast_S64_S64x1_0 (extractStridedSlice S64 ![1] (Host.reduceAdd X (constant S_ .f32 0x00000000#32) reducesTo_S65x65_S65_d1 h_S_) slices_S65_S64_1))) (broadcastInDim S64x64 ![0, 1] bcast_S1x64_S64x64_0_1 (broadcastInDim S1x64 ![1] bcast_S64_S1x64_1 (extractStridedSlice S64 ![1] (Host.reduceAdd X (constant S_ .f32 0x00000000#32) reducesTo_S65x65_S65_d0 h_S_) slices_S65_S64_1)))) (extractStridedSlice S64x64 ![1, 1] X slices_S65x65_S64x64_1_1)) (broadcastInDim S64x64 ![] bcast_S_S64x64 (constant S_ .f32 0x3F800000#32)))) (broadcastInDim S64x64 ![] bcast_S_S64x64 (id (constant S_ .f32 0x00000000#32)))) (constant S_ .f32 0xFF800000#32) reducesTo_S64x64_S64_d1 h_S_)) (broadcastInDim S64 ![] bcast_S_S64 (id (constant S_ .f32 0x00000000#32)))) (constant S_ .f32 0x00000000#32) reducesTo_S64_S_d0 h_S_) (Host.reduceAdd (select (cmpf (F := F) .ogt (extractStridedSlice S64 ![1] (Host.reduceAdd X (constant S_ .f32 0x00000000#32) reducesTo_S65x65_S65_d0 h_S_) slices_S65_S64_1) (broadcastInDim S64 ![] bcast_S_S64 (constant S_ .f32 0x00000000#32))) (subf (broadcastInDim S64 ![] bcast_S_S64 (constant S_ .f32 0x3F800000#32)) (Host.reduce FloatOps.maximumf (select (cmpf (F := F) .ogt (subf (addf (broadcastInDim S64x64 ![0, 1] bcast_S64x1_S64x64_0_1 (broadcastInDim S64x1 ![0] bcast_S64_S64x1_0 (extractStridedSlice S64 ![1] (Host.reduceAdd X (constant S_ .f32 0x00000000#32) reducesTo_S65x65_S65_d1 h_S_) slices_S65_S64_1))) (broadcastInDim S64x64 ![0, 1] bcast_S1x64_S64x64_0_1 (broadcastInDim S1x64 ![1] bcast_S64_S1x64_1 (extractStridedSlice S64 ![1] (Host.reduceAdd X (constant S_ .f32 0x00000000#32) reducesTo_S65x65_S65_d0 h_S_) slices_S65_S64_1)))) (extractStridedSlice S64x64 ![1, 1] X slices_S65x65_S64x64_1_1)) (broadcastInDim S64x64 ![] bcast_S_S64x64 (constant S_ .f32 0x00000000#32))) (Host.divf (extractStridedSlice S64x64 ![1, 1] X slices_S65x65_S64x64_1_1) (maximumf (subf (addf (broadcastInDim S64x64 ![0, 1] bcast_S64x1_S64x64_0_1 (broadcastInDim S64x1 ![0] bcast_S64_S64x1_0 (extractStridedSlice S64 ![1] (Host.reduceAdd X (constant S_ .f32 0x00000000#32) reducesTo_S65x65_S65_d1 h_S_) slices_S65_S64_1))) (broadcastInDim S64x64 ![0, 1] bcast_S1x64_S64x64_0_1 (broadcastInDim S1x64 ![1] bcast_S64_S1x64_1 (extractStridedSlice S64 ![1] (Host.reduceAdd X (constant S_ .f32 0x00000000#32) reducesTo_S65x65_S65_d0 h_S_) slices_S65_S64_1)))) (extractStridedSlice S64x64 ![1, 1] X slices_S65x65_S64x64_1_1)) (broadcastInDim S64x64 ![] bcast_S_S64x64 (constant S_ .f32 0x3F800000#32)))) (broadcastInDim S64x64 ![] bcast_S_S64x64 (id (constant S_ .f32 0x00000000#32)))) (constant S_ .f32 0xFF800000#32) reducesTo_S64x64_S64_d0 h_S_)) (broadcastInDim S64 ![] bcast_S_S64 (id (constant S_ .f32 0x00000000#32)))) (constant S_ .f32 0x00000000#32) reducesTo_S64_S_d0 h_S_)) (sitofp (F := F) .f32 (maxsi (addi (Host.reduce IntOp.addi (extui 32 (cmpf (F := F) .ogt (extractStridedSlice S64 ![1] (Host.reduceAdd X (constant S_ .f32 0x00000000#32) reducesTo_S65x65_S65_d1 h_S_) slices_S65_S64_1) (broadcastInDim S64 ![] bcast_S_S64 (constant S_ .f32 0x00000000#32))) natLt_1_32) (constantI S_ 32 0#32) reducesTo_S64_S_d0 h_S_) (Host.reduce IntOp.addi (extui 32 (cmpf (F := F) .ogt (extractStridedSlice S64 ![1] (Host.reduceAdd X (constant S_ .f32 0x00000000#32) reducesTo_S65x65_S65_d0 h_S_) slices_S65_S64_1) (broadcastInDim S64 ![] bcast_S_S64 (constant S_ .f32 0x00000000#32))) natLt_1_32) (constantI S_ 32 0#32) reducesTo_S64_S_d0 h_S_)) (constantI S_ 32 1#32)))) (constant S_ .f32 0x00000000#32)

end Cert.RefSide

end
-- ==== Proof.KI.TailRead.lean ====
/-
  What the idealized kernel's program leaves in its result buffer: the lines after the region, read back as one
  function of the region's result array.  The first two lines add the two partial histograms and keep the
  [65 × 65] corner; every later line is a line of the score computed from that matrix.
-/
import proofs.«402470_j15049565405346_3_alg».proof.Proof.KI.Entry
import proofs.«402470_j15049565405346_3_alg».proof.Proof.TailFn
import Idealize.ShloMosaic.Lib.StableHlo.Run
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

open StableHlo in
/-- The lines after the region, from any contents W, leave in the result buffer the score of the [65 × 65] corner of
    the sum over the leading axis of what W holds in the region's result array: each line's result is its
    function of its operands' contents, and no line writes a buffer an earlier line has read for a later one. -/
private theorem after_tail (W : Valuation τ sig (Elt F)) :
    StableHlo.after (tailOps (F := F)).flatten W (Proc.devRef .tc main_v46)
      = Cert.RefSide.tailR (F := F) (extractStridedSlice S65x65 ![0, 0]
          (Host.reduceAdd (W (Proc.devRef .tc main_v0)) (constant S_ .f32 0x00000000#32)
            reducesTo_S2x128x128_S128x128_d0 h_S_) slices_S128x128_S65x65_0_0) := by
  simp only [tailOps, hostOps1, hostOps1_1, hostOps1_2, hostOps1_3, hostOps1_4, hostOps1_5, hostOps1_6, hostOps1_7,
    List.flatten_cons, List.flatten_nil, List.append_nil, List.cons_append, List.nil_append]
  after_results_simp
  simp only [StableHlo.TRef.ofBuf, StableHlo.TRef.toBuf, cast_eq, id_eq]
  unfold Cert.RefSide.tailR
  simp only [id_eq]

/-- The program's result after the tail, as the score of the confusion matrix the region's result array sums to. -/
theorem tail_read (dats : (p : Fin 1) → (c : Dev nD) → Dat τ (Elt F) Unit ℕ (UR sig nD τ) ℕ (cfgs p) c) (c : Dev nD) :
    Pipeline.afterTail₀ cfgs dats 0 (V0 m) tailOps c main_v46
      = Cert.RefSide.tailR (F := F) (extractStridedSlice S65x65 ![0, 0] (Host.reduceAdd (Pipeline.withArrays spec0 c (V0 m c) (fun w => (dats 0 c).arrAt w cfg0.N) (Proc.devRef .tc main_v0)) (constant S_ .f32 0x00000000#32) reducesTo_S2x128x128_S128x128_d0 h_S_) slices_S128x128_S65x65_0_0) := by
  unfold Pipeline.afterTail₀
  exact after_tail _

end Cert.KernelIdeal.Hand

end
-- ==== Proof.Spec.lean ====
/-
  The co-occurrence count both programs compute.

  For two label images P and T over [2048 × 2048] and labels a, b, the count of pixels with P = a and T = b,
  written as a sum over rows and columns of a product of two indicators (each 0 or 1 on the extended reals):
  the one-hot rows the kernel multiplies, and the unit updates the reference scatters.
-/
import Idealize.ShloMosaic.PureOps.Ideal
import Idealize.ShloMosaic.Lib.ValueIdx

noncomputable section

namespace Cert.Hist

open Idealize.ShloMosaic Idealize.ShloMosaic.ValueIdx

/-- The indicator of "the word reads the label l", as an extended real. -/
def ind (w : BitVec 32) (l : ℕ) : EReal := if w.toInt = (l : Int) then 1 else 0

/-- The pixels of rows r₀ ≤ r < r₀ + n with P = a and T = b, counted. -/
def cntRows (P T : (⟨2, ![2048, 2048]⟩ : Shape).Idx → BitVec 32) (a b : ℕ) (rows : Finset (Fin 2048)) : EReal :=
  ∑ r ∈ rows, ∑ q : Fin 2048, ind (P (ix2 r q)) a * ind (T (ix2 r q)) b

/-- The pixels with P = a and T = b, counted over the whole image. -/
def cnt (P T : (⟨2, ![2048, 2048]⟩ : Shape).Idx → BitVec 32) (a b : ℕ) : EReal :=
  ∑ r : Fin 2048, ∑ q : Fin 2048, ind (P (ix2 r q)) a * ind (T (ix2 r q)) b

/-- The confusion matrix over the labels 0 … 64. -/
def conf (P T : (⟨2, ![2048, 2048]⟩ : Shape).Idx → BitVec 32) : (⟨2, ![65, 65]⟩ : Shape).Idx → EReal :=
  fun j => cnt P T (j 0).val (j 1).val

theorem cnt_eq_cntRows (P T : (⟨2, ![2048, 2048]⟩ : Shape).Idx → BitVec 32) (a b : ℕ) :
    cnt P T a b = cntRows P T a b Finset.univ := rfl

end Cert.Hist

end
-- ==== Proof.RowSums.lean ====
/-
  Row ranges of the co-occurrence count.

  The count over a set of rows is additive over a split of a row range lo ≤ r < hi at a middle row; over an empty
  range it is 0; over a block of n consecutive rows (n = 8 stated apart) it is the double sum over the block's rows and the 2048
  columns; over all 2048 rows it is the whole count.  Only sums of extended reals: no subtraction anywhere.
-/
import proofs.«402470_j15049565405346_3_alg».proof.Proof.Spec

noncomputable section

namespace Cert.Hist

open Idealize.ShloMosaic Idealize.ShloMosaic.ValueIdx

/-- The rows lo ≤ r < hi of the image. -/
def rowsIn (lo hi : ℕ) : Finset (Fin 2048) := Finset.univ.filter fun r => lo ≤ r.val ∧ r.val < hi

/-- An empty range of rows counts nothing. -/
theorem cntRows_rowsIn_self (P T : (⟨2, ![2048, 2048]⟩ : Shape).Idx → BitVec 32) (a b : ℕ) (lo : ℕ) :
    cntRows P T a b (rowsIn lo lo) = 0 := by
  have h : rowsIn lo lo = ∅ := by
    unfold rowsIn
    refine Finset.filter_eq_empty_iff.mpr fun r _ hr => ?_
    omega
  unfold cntRows
  rw [h, Finset.sum_empty]

/-- The count over lo ≤ r < hi is the count over lo ≤ r < mid plus the count over mid ≤ r < hi: each row of the
    range lies in exactly one of the two parts, and a row outside it in neither. -/
theorem cntRows_rowsIn_append (P T : (⟨2, ![2048, 2048]⟩ : Shape).Idx → BitVec 32) (a b : ℕ) {lo mid hi : ℕ}
    (h1 : lo ≤ mid) (h2 : mid ≤ hi) :
    cntRows P T a b (rowsIn lo hi) = cntRows P T a b (rowsIn lo mid) + cntRows P T a b (rowsIn mid hi) := by
  unfold cntRows rowsIn
  rw [Finset.sum_filter, Finset.sum_filter, Finset.sum_filter, ← Finset.sum_add_distrib]
  refine Finset.sum_congr rfl fun r _ => ?_
  by_cases hl : lo ≤ r.val
  · by_cases hm : r.val < mid
    · rw [if_pos ⟨hl, by omega⟩, if_pos ⟨hl, hm⟩, if_neg (fun h => by omega), add_zero]
    · by_cases hh : r.val < hi
      · rw [if_pos ⟨hl, hh⟩, if_neg (fun h => by omega), if_pos ⟨by omega, hh⟩, zero_add]
      · rw [if_neg (fun h => by omega), if_neg (fun h => by omega), if_neg (fun h => by omega), add_zero]
  · rw [if_neg (fun h => by omega), if_neg (fun h => by omega), if_neg (fun h => by omega), add_zero]

/-- The count over the 8 rows base ≤ r < base + 8, written over the block's own row number 0 … 7. -/
theorem cntRows_rowsIn_block8 (P T : (⟨2, ![2048, 2048]⟩ : Shape).Idx → BitVec 32) (a b : ℕ) (base : ℕ)
    (hb : base + 8 ≤ 2048) :
    cntRows P T a b (rowsIn base (base + 8))
      = ∑ r : Fin 8, ∑ q : Fin 2048, ind (P (ix2 (⟨base + r.val, by omega⟩ : Fin 2048) q)) a
          * ind (T (ix2 (⟨base + r.val, by omega⟩ : Fin 2048) q)) b := by
  unfold cntRows
  symm
  refine Finset.sum_nbij' (fun s : Fin 8 => (⟨base + s.val, by omega⟩ : Fin 2048))
    (fun r : Fin 2048 => (⟨(r.val - base) % 8, Nat.mod_lt _ (by decide)⟩ : Fin 8)) ?_ ?_ ?_ ?_ ?_
  · intro s _
    unfold rowsIn
    rw [Finset.mem_filter]
    refine ⟨Finset.mem_univ _, ?_⟩
    show base ≤ base + s.val ∧ base + s.val < base + 8
    omega
  · exact fun _ _ => Finset.mem_univ _
  · intro s _
    refine Fin.ext ?_
    show (base + s.val - base) % 8 = s.val
    omega
  · intro r hr
    unfold rowsIn at hr
    rw [Finset.mem_filter] at hr
    have hr2 := hr.2
    refine Fin.ext ?_
    show base + (r.val - base) % 8 = r.val
    omega
  · intro s _
    rfl

/-- The count over the n rows base ≤ r < base + n, written over the block's own row number 0 … n - 1. -/
theorem cntRows_rowsIn_block (P T : (⟨2, ![2048, 2048]⟩ : Shape).Idx → BitVec 32) (a b : ℕ) (base n : ℕ)
    (hb : base + n ≤ 2048) :
    cntRows P T a b (rowsIn base (base + n))
      = ∑ r : Fin n, ∑ q : Fin 2048, ind (P (ix2 (⟨base + r.val, by omega⟩ : Fin 2048) q)) a
          * ind (T (ix2 (⟨base + r.val, by omega⟩ : Fin 2048) q)) b := by
  unfold cntRows
  symm
  refine Finset.sum_nbij (fun s : Fin n => (⟨base + s.val, by omega⟩ : Fin 2048)) ?_ ?_ ?_ ?_
  · intro s _
    unfold rowsIn
    rw [Finset.mem_filter]
    refine ⟨Finset.mem_univ _, ?_⟩
    show base ≤ base + s.val ∧ base + s.val < base + n
    omega
  · intro s _ s' _ h
    have hv : base + s.val = base + s'.val := congrArg Fin.val h
    exact Fin.ext (by omega)
  · intro r hr
    have hr' := Finset.mem_coe.mp hr
    unfold rowsIn at hr'
    rw [Finset.mem_filter] at hr'
    have hr2 := hr'.2
    refine ⟨(⟨r.val - base, by omega⟩ : Fin n), Finset.mem_coe.mpr (Finset.mem_univ _), Fin.ext ?_⟩
    show base + (r.val - base) = r.val
    omega
  · intro s _
    rfl

/-- All 2048 rows: the whole count. -/
theorem cntRows_rowsIn_all (P T : (⟨2, ![2048, 2048]⟩ : Shape).Idx → BitVec 32) (a b : ℕ) :
    cntRows P T a b (rowsIn 0 2048) = cnt P T a b := by
  have h : rowsIn 0 2048 = Finset.univ := by
    unfold rowsIn
    exact Finset.filter_true_of_mem fun r _ => ⟨Nat.zero_le _, r.isLt⟩
  rw [h, cnt_eq_cntRows]

end Cert.Hist

end
-- ==== Proof.KI.HostConf.lean ====
/-
  The host's first two lines after the kernel's region, on the extended reals.

  The kernel leaves two partial histograms [2 × 128 × 128]: entry (h, a, b) counts, over the rows of the image's half
  h (rows 1024 · h ≤ r < 1024 · h + 1024), the pixels where the first image reads label a and the second label b.
  The host sums the two over the leading axis from a zero initial value and keeps the corner [0:65, 0:65]: entry
  (a, b) is the count over rows 0 … 1023 plus the count over rows 1024 … 2047, the count over the whole image — the
  confusion matrix over the labels 0 … 64.
-/
import proofs.«402470_j15049565405346_3_alg».proof.KernelIdeal
import proofs.«402470_j15049565405346_3_alg».proof.Proof.Gen.KernelIdeal
import proofs.«402470_j15049565405346_3_alg».proof.Proof.Spec
import proofs.«402470_j15049565405346_3_alg».proof.Proof.RowSums
import Idealize.ShloMosaic.PureOps.Ideal.Laws
import Idealize.ShloMosaic.Lib.ValueIdx
import Idealize.ShloMosaic.Lib.Pipeline.Value
import Idealize.ShloMosaic.Lib.IdealHost

noncomputable section

namespace Cert.KernelIdeal.HostConf

open Cert.KernelIdeal Cert.KernelIdeal.Gen Cert.Hist Idealize.ShloMosaic Idealize.ShloMosaic.ValueIdx

/-- The corner [0:65, 0:65] of a [128 × 128] array reads, at (a, b), the array at (a, b). -/
private theorem slice_corner_apply {α : Type} (x : S128x128.Idx → α) (a b : Fin 65) :
    extractStridedSlice S65x65 ![0, 0] x slices_S128x128_S65x65_0_0 (ix2 a b)
      = x (ix2 (⟨a.val, by omega⟩ : Fin 128) (⟨b.val, by omega⟩ : Fin 128)) := by
  refine extractStridedSlice_apply ![0, 0] x slices_S128x128_S65x65_0_0 (ix2 a b)
    (ix2 (⟨a.val, by omega⟩ : Fin 128) (⟨b.val, by omega⟩ : Fin 128)) fun ax => ?_
  match ax with
  | ⟨0, _⟩ => show a.val = 0 + a.val; omega
  | ⟨1, _⟩ => show b.val = 0 + b.val; omega

/-- The sum of a [2 × 128 × 128] array over its leading axis from a zero initial value reads, at (a, b), the sum of
    the two entries (0, a, b) and (1, a, b). -/
private theorem reduce_halves_apply (O : FVec Ideal S2x128x128 .f32) (a b : Fin 128) :
    Host.reduceAdd (F := Ideal) O (constant S_ .f32 0x00000000#32) reducesTo_S2x128x128_S128x128_d0 h_S_ (ix2 a b)
      = O (ix3 (0 : Fin 2) a b) + O (ix3 (1 : Fin 2) a b) := by
  have hred : S2x128x128.Reduces [0] S128x128 := by decide
  rw [hostReduceAdd_apply]
  refine (Ideal.hostReduceAdd_single reducesTo_S2x128x128_S128x128_d0 hred O _ (ix2 a b)).trans ?_
  rw [constant_apply, Ideal.ofBits_zero_f32, zero_add]
  have hl : ∀ k : Fin 2, hred.lift (ix2 a b) k = ix3 k a b := fun k =>
    funext fun ax => Fin.ext (by
      match ax with
      | ⟨0, _⟩ => rfl
      | ⟨1, _⟩ => rfl
      | ⟨2, _⟩ => rfl)
  show ∑ k : Fin 2, O (hred.lift (ix2 a b) k) = _
  rw [Fin.sum_univ_two, hl, hl]

theorem host_conf (P T : (⟨2, ![2048, 2048]⟩ : Shape).Idx → BitVec 32) (O : FVec Ideal S2x128x128 .f32)
    (hO : ∀ (h : Fin 2) (a b : Fin 128), O (ix3 h a b) = cntRows P T a.val b.val (rowsIn (1024 * h.val) (1024 * h.val + 1024))) :
    (extractStridedSlice S65x65 ![0, 0] (Host.reduceAdd (F := Ideal) O (constant S_ .f32 0x00000000#32) reducesTo_S2x128x128_S128x128_d0 h_S_) slices_S128x128_S65x65_0_0 : FVec Ideal S65x65 .f32) = conf P T := by
  funext j
  obtain ⟨a, b, rfl⟩ : ∃ (a : Fin 65) (b : Fin 65), j = ix2 a b := ⟨j 0, j 1, eq_ix2 j⟩
  rw [slice_corner_apply, reduce_halves_apply, hO, hO]
  show cntRows P T a.val b.val (rowsIn 0 1024) + cntRows P T a.val b.val (rowsIn 1024 2048) = cnt P T a.val b.val
  rw [← cntRows_rowsIn_append P T a.val b.val (lo := 0) (mid := 1024) (hi := 2048) (by omega) (by omega),
    cntRows_rowsIn_all]

end Cert.KernelIdeal.HostConf

end
-- ==== Proof.KI.Blocks.lean ====
/-
  Where the blocks of the kernel's three windows sit in their arrays.

  The grid is 2 × 8: sixteen points, point t at coordinates (t / 8, t % 8).  The two label images [2048 × 2048] are
  cut into blocks [128 × 2048]; at point t both windows are on block (8 · (t / 8) + t % 8, 0) = (t, 0), so the block's
  entry (r, q) is the image's entry (128 · t + r, q).  The result [2 × 128 × 128] is cut into blocks [1 × 128 × 128];
  at point t its window is on block (t / 8, 0, 0), so the block's entry (0, a, b) is the result's entry (t / 8, a, b),
  and every entry (h, a, b) of the result lies in the block of the point 8 · h + 7, where the block is written back.
-/
import proofs.«402470_j15049565405346_3_alg».proof.Proof.KI.Kit
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The printed index maps, decided over the grid -/

/-- The first image's window at point t is on block (t, 0). -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The second image's window at point t is on block (t, 0). -/
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The result's window at point t is on block (t / 8, 0, 0). -/
theorem idx0_2 : ∀ t : Fin cfg0.N, win0_2.index t (0 : Fin 3) = t.val / 8 ∧ win0_2.index t (1 : Fin 3) = 0
    ∧ win0_2.index t (2 : Fin 3) = 0 :=
  (by decide +kernel : ∀ t : Fin grid0.N, win0_2.index t (0 : Fin 3) = t.val / 8 ∧ win0_2.index t (1 : Fin 3) = 0
    ∧ win0_2.index t (2 : Fin 3) = 0)

/-- Row r of block t is a row of the image. -/
theorem row_lt (t : Fin cfg0.N) (r : Fin 128) : 128 * t.val + r.val < 2048 := by
  have hN : cfg0.N = 16 := N_0
  have ht := t.isLt
  omega

/-- The half of the image point t works on. -/
theorem half_lt (t : Fin cfg0.N) : t.val / 8 < 2 := by
  have hN : cfg0.N = 16 := N_0
  have ht := t.isLt
  omega

/-! ## The image windows' blocks -/

theorem iblk0_apply (c : Dev nD) (t : Fin cfg0.N) (r : Fin 128) (q : Fin 2048) :
    iblk m c 0 t (ix2 r q)
      = m ((c : Thread nD τ).loc main_arg0) (ix2 (⟨128 * t.val + r.val, row_lt t r⟩ : Fin 2048) q) := by
  obtain ⟨e0, e1⟩ := idx0_0 t
  show V m c main_arg0 (((cfg0.win 0).blk t).view.emb (ix2 r q)) = _
  rw [V_main_arg0]
  refine congrArg (m ((c : Thread nD τ).loc main_arg0)) (funext fun a => Fin.ext ?_)
  match a with
  | ⟨0, _⟩ => show win0_0.index t (0 : Fin 2) * 128 + 1 * r.val = 128 * t.val + r.val; omega
  | ⟨1, _⟩ => show win0_0.index t (1 : Fin 2) * 2048 + 1 * q.val = q.val; omega

theorem iblk1_apply (c : Dev nD) (t : Fin cfg0.N) (r : Fin 128) (q : Fin 2048) :
    iblk m c 1 t (ix2 r q)
      = m ((c : Thread nD τ).loc main_arg1) (ix2 (⟨128 * t.val + r.val, row_lt t r⟩ : Fin 2048) q) := by
  obtain ⟨e0, e1⟩ := idx0_1 t
  show V m c main_arg1 (((cfg0.win 1).blk t).view.emb (ix2 r q)) = _
  rw [V_main_arg1]
  refine congrArg (m ((c : Thread nD τ).loc main_arg1)) (funext fun a => Fin.ext ?_)
  match a with
  | ⟨0, _⟩ => show win0_1.index t (0 : Fin 2) * 128 + 1 * r.val = 128 * t.val + r.val; omega
  | ⟨1, _⟩ => show win0_1.index t (1 : Fin 2) * 2048 + 1 * q.val = q.val; omega

/-! ## The result window's blocks -/

/-- Point t's block of a result array, read at (0, a, b): the array at (t / 8, a, b). -/
theorem blk2_read (G : FVec F S2x128x128 .f32) (t : Fin cfg0.N) (a b : Fin 128) :
    ((cfg0.win 2).blk t).view.read (Elt F) G (ix3 (0 : Fin 1) a b)
      = G (ix3 (⟨t.val / 8, half_lt t⟩ : Fin 2) a b) := by
  obtain ⟨e0, e1, e2⟩ := idx0_2 t
  show G (((cfg0.win 2).blk t).view.emb (ix3 (0 : Fin 1) a b)) = _
  refine congrArg G (funext fun ax => Fin.ext ?_)
  match ax with
  | ⟨0, _⟩ => show win0_2.index t (0 : Fin 3) * 1 + 1 * 0 = t.val / 8; omega
  | ⟨1, _⟩ => show win0_2.index t (1 : Fin 3) * 128 + 1 * a.val = a.val; omega
  | ⟨2, _⟩ => show win0_2.index t (2 : Fin 3) * 128 + 1 * b.val = b.val; omega

/-- An index of the result is in point t's block iff each coordinate is in the block's range on its axis. -/
theorem mem_blk2 (t : Fin cfg0.N) (i : S2x128x128.Idx) :
    i ∈ ((cfg0.win 2).blk t).view.set
      ↔ ∀ a : Fin 3, win0_2.index t a * S1x128x128.size a ≤ (i a).val
          ∧ (i a).val < win0_2.index t a * S1x128x128.size a + S1x128x128.size a := by
  show i ∈ ((View.whole main_v0).slice (win0_2.rect t)).set ↔ _
  rw [View.set_slice_whole, Rect.mem_set_unit]
  exact Iff.rfl

/-- Every entry (h, a, b) of the result lies in the block of the point 8 · h + 7, which is written back. -/
theorem blk2_cover (i : S2x128x128.Idx) :
    ∃ t : Fin cfg0.N, (cfg0.win 2).flush t = true ∧ i ∈ ((cfg0.win 2).blk t).view.set := by
  have hN : grid0.N = 16 := N_0
  have h0 : (i 0).val < 2 := (i 0).isLt
  have h1 : (i 1).val < 128 := (i 1).isLt
  have h2 : (i 2).val < 128 := (i 2).isLt
  have hlt : 8 * (i 0).val + 7 < cfg0.N := by show 8 * (i 0).val + 7 < grid0.N; omega
  obtain ⟨t, ht⟩ : ∃ t : Fin cfg0.N, t.val = 8 * (i 0).val + 7 := ⟨⟨_, hlt⟩, rfl⟩
  obtain ⟨e0, e1, e2⟩ := idx0_2 t
  refine ⟨t, (flush0_2 t).mpr (by omega), ?_⟩
  rw [mem_blk2]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 128 ≤ (i 1).val ∧ (i 1).val < win0_2.index t (1 : Fin 3) * 128 + 128
    omega
  | ⟨2, _⟩ =>
    show win0_2.index t (2 : Fin 3) * 128 ≤ (i 2).val ∧ (i 2).val < win0_2.index t (2 : Fin 3) * 128 + 128
    omega

end Cert.KernelIdeal.Hand

end
-- ==== Proof.KI.Pay.lean ====
/-
  The kernel's stored values at one index, on the extended reals.

  The zero fill is 0 everywhere.  One trip's update of the accumulator at (a, b) is the accumulator's entry plus,
  over the trip's 8 rows and 2048 columns, the product of the two one-hot entries: 1 where the first image reads
  label a and the second reads label b, else 0 (a label image entry converted exactly, compared with the lane
  number converted exactly; the comparison's bit widened and converted is 0 or 1; the matrix product contracts the
  16384 pixel positions).  The copy into the result block is the accumulator with a leading unit axis.
-/
import proofs.«402470_j15049565405346_3_alg».proof.Proof.Gen.KernelIdeal.Skeleton
import proofs.«402470_j15049565405346_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Cert.Hist
open Idealize.ShloMosaic Idealize.ShloMosaic.ValueIdx

/-! ## The zero fill and the copy into the result block -/

theorem pay1_apply (j : S128x128.Idx) : k0_pay1 (F := Ideal) j = 0 := by
  unfold k0_pay1
  rw [shapeCast_self]
  exact Ideal.ofBits_zero_f32

/-! ## The pixel axis: 16384 positions are 8 rows of 2048 columns, row-major -/

/-- A sum over the 16384 pixel positions is the double sum over 8 rows and 2048 columns: position k = r · 2048 + q. -/
private theorem sum_fin_16384 {M : Type*} [AddCommMonoid M] (f : Fin 16384 → M) :
    ∑ k, f k = ∑ r : Fin 8, ∑ q : Fin 2048, f ⟨r.val * 2048 + q.val, by omega⟩ := by
  rw [← Equiv.sum_comp (show Fin 8 × Fin 2048 ≃ Fin 16384 from finProdFinEquiv) f, Fintype.sum_prod_type]
  refine Finset.sum_congr rfl fun r _ => Finset.sum_congr rfl fun q _ => congrArg f (Fin.ext ?_)
  show (finProdFinEquiv (r, q)).val = r.val * 2048 + q.val
  rw [finProdFinEquiv_apply_val]
  show q.val + 2048 * r.val = r.val * 2048 + q.val
  omega

/-! ## The layout operations of a one-hot operand, read at an index -/

section Layout
variable {α : Type}

/-- An [8, 2048] array cast to [8, 2048, 1] reads, at (r, q, u), the operand at (r, q). -/
private theorem shapeCast_ab_ab1_apply (x : (⟨2, ![8, 2048]⟩ : Shape).Idx → α)
    (h : (⟨2, ![8, 2048]⟩ : Shape).ShapeCasts ⟨3, ![8, 2048, 1]⟩) (r : Fin 8) (q : Fin 2048) (u : Fin 1) :
    shapeCast ⟨3, ![8, 2048, 1]⟩ x h (ix3 r q u) = x (ix2 r q) :=
  shapeCast_apply x h _ _ (by
    have hu : u.val = 0 := by omega
    rw [Shape.rowMajor_val_three, Shape.rowMajor_val_two]
    show r.val * 2048 + q.val = (r.val * 2048 + q.val) * 1 + u.val
    omega)

/-- An [8, 2048, 128] array cast to [16384, 128] reads, at (r · 2048 + q, l), the operand at (r, q, l). -/
private theorem shapeCast_abc_kc_apply (x : (⟨3, ![8, 2048, 128]⟩ : Shape).Idx → α)
    (h : (⟨3, ![8, 2048, 128]⟩ : Shape).ShapeCasts ⟨2, ![16384, 128]⟩) (r : Fin 8) (q : Fin 2048) (l : Fin 128) :
    shapeCast ⟨2, ![16384, 128]⟩ x h (ix2 (⟨r.val * 2048 + q.val, by omega⟩ : Fin 16384) l) = x (ix3 r q l) :=
  shapeCast_apply x h _ _ (by
    rw [Shape.rowMajor_val_three, Shape.rowMajor_val_two]
    rfl)

/-- An [8, 2048, 1] array broadcast to [8, 2048, 128] reads, at (r, q, l), the operand at (r, q, 0). -/
private theorem broadcastTo_ab1_abc_apply (v : (⟨3, ![8, 2048, 1]⟩ : Shape).Idx → α)
    (h : (⟨3, ![8, 2048, 1]⟩ : Shape).Broadcasts ⟨3, ![8, 2048, 128]⟩) (r : Fin 8) (q : Fin 2048) (l : Fin 128) :
    broadcastTo ⟨3, ![8, 2048, 128]⟩ v h (ix3 r q l) = v (ix3 r q (0 : Fin 1)) := by
  refine broadcastTo_apply v h (ix3 r q l) (ix3 r q (0 : Fin 1)) fun ax => ?_
  match ax with
  | ⟨0, _⟩ => rfl
  | ⟨1, _⟩ => rfl
  | ⟨2, _⟩ => rfl

/-- A [1, 1, 128] array broadcast to [8, 2048, 128] reads, at (r, q, l), the operand at (0, 0, l). -/
private theorem broadcastTo_11c_abc_apply (v : (⟨3, ![1, 1, 128]⟩ : Shape).Idx → α)
    (h : (⟨3, ![1, 1, 128]⟩ : Shape).Broadcasts ⟨3, ![8, 2048, 128]⟩) (r : Fin 8) (q : Fin 2048) (l : Fin 128) :
    broadcastTo ⟨3, ![8, 2048, 128]⟩ v h (ix3 r q l) = v (ix3 (0 : Fin 1) (0 : Fin 1) l) := by
  refine broadcastTo_apply v h (ix3 r q l) (ix3 (0 : Fin 1) (0 : Fin 1) l) fun ax => ?_
  match ax with
  | ⟨0, _⟩ => rfl
  | ⟨1, _⟩ => rfl
  | ⟨2, _⟩ => rfl

end Layout

/-- The lane numbers 0 … 127 along the last axis: the entry at (0, 0, l) is the word of l. -/
private theorem iota_lane_apply (l : Fin 128) :
    iota .tc S1x1x128 32 [2] iota_S1x1x128_d2_w32 (ix3 (0 : Fin 1) (0 : Fin 1) l) = BitVec.ofNat 32 l.val := by
  rw [iota_single_apply]

/-! ## One entry of a one-hot matrix is the indicator -/

/-- A lane number below 128, read signed from its 32-bit word, is itself. -/
private theorem lane_toInt (l : Fin 128) : (BitVec.ofNat 32 l.val).toInt = (l.val : Int) := by
  have hl := l.isLt
  rw [BitVec.toInt_eq_toNat_cond, BitVec.toNat_ofNat]
  have h1 : l.val % 2 ^ 32 = l.val := Nat.mod_eq_of_lt (by omega)
  rw [h1, if_pos (by omega)]

/-- Two integers compared for equality as extended reals: the bit is 1 exactly when they are equal. -/
private theorem cmp_oeq_coe (m n : Int) :
    Ideal.cmp .oeq ((m : ℝ) : EReal) ((n : ℝ) : EReal) = if m = n then 1#1 else 0#1 := by
  unfold Ideal.cmp
  by_cases h : m = n
  · subst h; simp
  · have hne : ((m : ℝ) : EReal) ≠ ((n : ℝ) : EReal) := fun e =>
      h (by exact_mod_cast EReal.coe_eq_coe_iff.mp e)
    simp [h, hne]

/-- The label word converted exactly, compared with the lane number converted exactly; the comparison's bit widened to
    32 bits and converted: 1 where the word reads the lane number, else 0. -/
private theorem hot_scalar (w : BitVec 32) (l : Fin 128) :
    (FloatOps.sitofp (F := Ideal) .f32
      ((FloatOps.cmpf (F := Ideal) (φ := .bf16) .oeq (FloatOps.sitofp .bf16 w)
        (FloatOps.sitofp .bf16 (BitVec.ofNat 32 l.val))).setWidth 32) : Ideal .f32) = ind w l.val := by
  show ((((Ideal.cmp .oeq ((w.toInt : ℝ) : EReal) (((BitVec.ofNat 32 l.val).toInt : ℝ) : EReal)).setWidth 32).toInt : ℝ) : EReal)
    = ind w l.val
  rw [cmp_oeq_coe, lane_toInt]
  unfold ind
  by_cases h : w.toInt = (l.val : Int)
  · rw [if_pos h, if_pos h]
    have h1 : ((1#1 : BitVec 1).setWidth 32).toInt = 1 := by decide
    rw [h1]; simp
  · rw [if_neg h, if_neg h]
    have h0 : ((0#1 : BitVec 1).setWidth 32).toInt = 0 := by decide
    rw [h0]; simp

/-- A one-hot operand of the product, [16384 × 128], at pixel position r · 2048 + q and lane l: the indicator that the
    image's entry at (r, q) reads the label l. -/
private theorem hot_apply (img : Vec Ideal S8x2048 .i32) (r : Fin 8) (q : Fin 2048) (l : Fin 128) :
    (shapeCast S16384x128
      (truncf .bf16
        (sitofp .f32
          (extui 32
            (cmpf .oeq
              (broadcastTo S8x2048x128
                (shapeCast S8x2048x1 (sitofp .bf16 img : FVec Ideal S8x2048 .bf16) shapeCasts_S8x2048_S8x2048x1)
                broadcasts_S8x2048x1_S8x2048x128)
              (broadcastTo S8x2048x128
                (sitofp .bf16 (iota .tc S1x1x128 32 [2] iota_S1x1x128_d2_w32) : FVec Ideal S1x1x128 .bf16)
                broadcasts_S1x1x128_S8x2048x128))
            natLt_1_32) : FVec Ideal S8x2048x128 .f32)
        bitsLt_bf16_f32 : FVec Ideal S8x2048x128 .bf16)
      shapeCasts_S8x2048x128_S16384x128 : FVec Ideal S16384x128 .bf16)
        (ix2 (⟨r.val * 2048 + q.val, by omega⟩ : Fin 16384) l)
      = ind (img (ix2 r q)) l.val := by
  rw [shapeCast_abc_kc_apply, truncf_apply, sitofp_apply, extui_apply, cmpf_apply, broadcastTo_ab1_abc_apply,
    broadcastTo_11c_abc_apply, shapeCast_ab_ab1_apply, sitofp_apply, sitofp_apply, iota_lane_apply]
  exact hot_scalar _ l

/-! ## The matrix product: both operands contract the pixel axis -/

private theorem lhs_S128x128_0 (i : S128x128.Idx) (q : dot_S16384x128_S16384x128_S128x128_0_0_1_1_n_n.contr.Idx) :
    (dot_S16384x128_S16384x128_S128x128_0_0_1_1_n_n.lhsIdx i q 0).val = (q ⟨0, by decide⟩).val :=
  dot_S16384x128_S16384x128_S128x128_0_0_1_1_n_n.lhsIdx_val_of_single rfl i q

private theorem lhs_S128x128_1 (i : S128x128.Idx) (q : dot_S16384x128_S16384x128_S128x128_0_0_1_1_n_n.contr.Idx) :
    (dot_S16384x128_S16384x128_S128x128_0_0_1_1_n_n.lhsIdx i q 1).val = (i 0).val := by
  unfold DotDims.lhsIdx
  rw [dif_neg (show ¬(1 : Fin S16384x128.rank) ∈ dot_S16384x128_S16384x128_S128x128_0_0_1_1_n_n.lhsBatch by decide),
    dif_pos (show (1 : Fin S16384x128.rank) ∈ dot_S16384x128_S16384x128_S128x128_0_0_1_1_n_n.lhsNonContracting by decide)]
  rfl

private theorem rhs_S128x128_0 (i : S128x128.Idx) (q : dot_S16384x128_S16384x128_S128x128_0_0_1_1_n_n.contr.Idx) :
    (dot_S16384x128_S16384x128_S128x128_0_0_1_1_n_n.rhsIdx i q 0).val = (q ⟨0, by decide⟩).val :=
  dot_S16384x128_S16384x128_S128x128_0_0_1_1_n_n.rhsIdx_val_of_single rfl i q

private theorem rhs_S128x128_1 (i : S128x128.Idx) (q : dot_S16384x128_S16384x128_S128x128_0_0_1_1_n_n.contr.Idx) :
    (dot_S16384x128_S16384x128_S128x128_0_0_1_1_n_n.rhsIdx i q 1).val = (i 1).val := by
  unfold DotDims.rhsIdx
  rw [dif_neg (show ¬(1 : Fin S16384x128.rank) ∈ dot_S16384x128_S16384x128_S128x128_0_0_1_1_n_n.rhsBatch by decide),
    dif_pos (show (1 : Fin S16384x128.rank) ∈ dot_S16384x128_S16384x128_S128x128_0_0_1_1_n_n.rhsNonContracting by decide)]
  rfl

/-- The product into a zero accumulator at (a, b): the sum over the 16384 pixel positions k of the left operand at
    (k, a) times the right operand at (k, b). -/
private theorem matmul_zero_apply (L R : FVec Ideal S16384x128 .bf16) (a b : Fin 128) :
    matmul dot_S16384x128_S16384x128_S128x128_0_0_1_1_n_n none L R
        (constant (F := Ideal) S128x128 .f32 0x00000000#32) (ix2 a b)
      = ∑ k : Fin 16384, L (ix2 k a) * R (ix2 k b) := by
  simp only [matmul]
  rw [Ideal.matmul_constant_zero_apply,
    ← Equiv.sum_comp (contrEquiv1 dot_S16384x128_S16384x128_S128x128_0_0_1_1_n_n 16384 rfl rfl).symm]
  refine Finset.sum_congr rfl fun k _ => ?_
  have hk := contrEquiv1_symm_val dot_S16384x128_S16384x128_S128x128_0_0_1_1_n_n 16384 rfl rfl k
  have el : dot_S16384x128_S16384x128_S128x128_0_0_1_1_n_n.lhsIdx (ix2 a b)
      ((contrEquiv1 dot_S16384x128_S16384x128_S128x128_0_0_1_1_n_n 16384 rfl rfl).symm k) = ix2 k a :=
    funext fun ax => Fin.ext (by
      match ax with
      | ⟨0, _⟩ => exact (lhs_S128x128_0 _ _).trans hk
      | ⟨1, _⟩ => exact lhs_S128x128_1 _ _)
  have er : dot_S16384x128_S16384x128_S128x128_0_0_1_1_n_n.rhsIdx (ix2 a b)
      ((contrEquiv1 dot_S16384x128_S16384x128_S128x128_0_0_1_1_n_n 16384 rfl rfl).symm k) = ix2 k b :=
    funext fun ax => Fin.ext (by
      match ax with
      | ⟨0, _⟩ => exact (rhs_S128x128_0 _ _).trans hk
      | ⟨1, _⟩ => exact rhs_S128x128_1 _ _)
  rw [el, er]

/-! ## One trip's update of the accumulator -/

theorem pay2_apply (v14 v17 : Vec Ideal S8x2048 .i32) (v36 : Vec Ideal S128x128 .f32) (a b : Fin 128) :
    k0_pay2 (F := Ideal) v14 v17 v36 (ix2 a b)
      = v36 (ix2 a b) + ∑ r : Fin 8, ∑ q : Fin 2048, ind (v14 (ix2 r q)) a.val * ind (v17 (ix2 r q)) b.val := by
  unfold k0_pay2
  simp only [shapeCast_self, addf_apply]
  rw [matmul_zero_apply, sum_fin_16384]
  refine congrArg (v36 (ix2 a b) + ·) ?_
  refine Finset.sum_congr rfl fun r _ => Finset.sum_congr rfl fun q _ => ?_
  rw [hot_apply v14 r q a, hot_apply v17 r q b]

theorem pay3_apply (v9 : Vec Ideal S128x128 .f32) (a b : Fin 128) :
    k0_pay3 (F := Ideal) v9 (ix3 (0 : Fin 1) a b) = v9 (ix2 a b) := by
  unfold k0_pay3
  exact shapeCast_ab_1ab_apply v9 _ 0 a b

end Cert.KernelIdeal.Pay

end
-- ==== Proof.KI.LoopVal.lean ====
/-
  The accumulator after the body's counted loop.

  The loop's sixteen trips each load 8 rows of both images' blocks and the accumulator, and store back the
  accumulator plus the product of the rows' one-hot matrices.  Read back, the accumulator after k trips is the
  k-fold update of what the loop found; at one entry, on the extended reals, it is what the loop found plus the
  co-occurrence count of the first 8·k rows of the two blocks.
-/
import proofs.«402470_j15049565405346_3_alg».proof.Proof.Gen.KernelIdeal.Loops
import proofs.«402470_j15049565405346_3_alg».proof.Proof.KI.Pay
import Idealize.ShloMosaic.Lib.Pipeline.Value

set_option maxRecDepth 16384

noncomputable section

namespace Cert.KernelIdeal.Hand

open Cert.KernelIdeal Cert.KernelIdeal.Gen Cert.Hist
open Idealize.ShloMosaic Idealize.ShloMosaic.TcCoe Idealize.ShloMosaic.ValueIdx
open Idealize.SL Idealize.SL.Sem

variable {F : FTy → Type} [FloatOps F]

/-- The accumulator after k trips, from the blocks x0, x1 and the contents xs the loop found: one update per trip,
    each over the trip's 8 rows read through the images' memrefs. -/
def accLoop (arg2 : Memref sig .tc .vmem S128x2048 .i32) (harg2 : arg2.IsWhole) (arg3 : Memref sig .tc .vmem S128x2048 .i32) (harg3 : arg3.IsWhole)
    (x0 x1 : Vec F S128x2048 .i32) (xs : Vec F S128x128 .f32) : ℕ → Vec F S128x128 .f32
  | 0 => xs
  | k + 1 =>
    if h : k < k0_t1_loop.trips then
      k0_pay2 (View.readAt (Elt F) arg2.view (Rect.unit (s := S128x2048) (k0_off1 ⟨k, h⟩) S8x2048.size (k0_off1_inb ⟨k, h⟩)).toLoadRect (harg2.unread x0))
        (View.readAt (Elt F) arg3.view (Rect.unit (s := S128x2048) (k0_off1 ⟨k, h⟩) S8x2048.size (k0_off1_inb ⟨k, h⟩)).toLoadRect (harg3.unread x1))
        (accLoop arg2 harg2 arg3 harg3 x0 x1 xs k)
    else accLoop arg2 harg2 arg3 harg3 x0 x1 xs k

/-- One trip writes one piece: the whole accumulator, holding the update of what the trip found there by the trip's
    8 rows of both blocks. -/
theorem tripL_eq (𝒱 : Variants) (c : Dev nD) (bd : Option 𝒱.V) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole)
    (X_arg2 : BufTy.Contents (Elt F) arg2.view.ty) (X_arg3 : BufTy.Contents (Elt F) arg3.view.ty)
    (k : Fin k0_t1_loop.trips) (f_arg5 : BufTy.Contents (Elt F) arg5.view.ty) :
    tripL_k0_t1 (F := F) 𝒱 c bd i arg2 harg2 arg3 harg3 arg4 harg4 arg5 harg5 X_arg2 X_arg3 k f_arg5
      = [⟨Rect.unit (s := S128x128) ![0, 0] S128x128.size inb_S128x128_S128x128_0_0,
          k0_pay2 (View.readAt (Elt F) arg2.view (Rect.unit (s := S128x2048) (k0_off1 k) S8x2048.size (k0_off1_inb k)).toLoadRect X_arg2)
            (View.readAt (Elt F) arg3.view (Rect.unit (s := S128x2048) (k0_off1 k) S8x2048.size (k0_off1_inb k)).toLoadRect X_arg3)
            (View.readAt (Elt F) arg5.view (Rect.unit (s := S128x128) ![0, 0] S128x128.size inb_S128x128_S128x128_0_0).toLoadRect f_arg5)⟩] := by
  unfold tripL_k0_t1 trip_k0_t1
  rfl

private theorem hz2 : (![0, 0] : Fin 2 → ℕ) = fun _ => 0 := by
  funext a; fin_cases a <;> rfl

/-- One store of the whole accumulator, read back, is what was stored. -/
private theorem read_one_whole (arg5 : Memref sig .tc .vmem S128x128 .f32) (f : BufTy.Contents (Elt F) arg5.view.ty)
    (w : Vec F S128x128 .f32) :
    arg5.view.read (Elt F) (arg5.view.writes (Elt F) f
      [(⟨Rect.unit (s := S128x128) ![0, 0] S128x128.size inb_S128x128_S128x128_0_0, w⟩ : View.Piece (Elt F) S128x128 .f32)]) = w := by
  have hcov : ∀ y : S128x128.Idx, ∃ p ∈ [(⟨Rect.unit (s := S128x128) ![0, 0] S128x128.size inb_S128x128_S128x128_0_0, w⟩ :
      View.Piece (Elt F) S128x128 .f32)], y ∈ p.1.set := fun y =>
    ⟨_, List.mem_singleton_self _, View.mem_set_unit_zero (S := S128x128) hz2 inb_S128x128_S128x128_0_0 y⟩
  rw [View.read_writes_eq_canon _ _ _ hcov]
  exact View.canon_unit_zero (S := S128x128) hz2 inb_S128x128_S128x128_0_0 w

/-- The pieces of the trips before k, written over what the loop found and read back, are the k-fold update. -/
theorem loop_read (𝒱 : Variants) (c : Dev nD) (bd : Option 𝒱.V) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole)
    (x0 x1 : Vec F S128x2048 .i32) (G : BufTy.Contents (Elt F) arg5.view.ty) (k : ℕ) (hk : k ≤ k0_t1_loop.trips) :
    arg5.view.read (Elt F) (arg5.view.writes (Elt F) G
        (pb_k0_t1 (F := F) 𝒱 c bd i arg2 harg2 arg3 harg3 arg4 harg4 arg5 harg5 (harg2.unread x0) (harg3.unread x1) G k))
      = accLoop arg2 harg2 arg3 harg3 x0 x1 (arg5.view.read (Elt F) G) k := by
  induction k with
  | zero => rfl
  | succ k ih =>
    have h : k < k0_t1_loop.trips := hk
    have ih' := ih (Nat.le_of_lt h)
    have e := pb_k0_t1_succ (F := F) 𝒱 c bd i arg2 harg2 arg3 harg3 arg4 harg4 arg5 harg5 (harg2.unread x0) (harg3.unread x1) G ⟨k, h⟩
    rw [show pb_k0_t1 (F := F) 𝒱 c bd i arg2 harg2 arg3 harg3 arg4 harg4 arg5 harg5 (harg2.unread x0) (harg3.unread x1) G (k + 1) = _ from e]
    rw [tripL_eq, View.writes_append]
    rw [read_one_whole, accLoop, dif_pos h]
    refine congrArg (k0_pay2 _ _) ?_
    exact (View.readAt_eq_ld _ _ _).trans ((View.ld_unit_zero (S := S128x128) hz2 _ _).trans ih')

/-- The trip's 8 rows read through a whole memref: row r of trip k is row 8·k + r of the block. -/
private theorem rows8 (arg2 : Memref sig .tc .vmem S128x2048 .i32) (harg2 : arg2.IsWhole) (x0 : Vec F S128x2048 .i32)
    (k : ℕ) (h : k < k0_t1_loop.trips) (r : Fin 8) (q : Fin 2048) (hr : 8 * k + r.val < 128) :
    View.readAt (Elt F) arg2.view (Rect.unit (s := S128x2048) (k0_off1 ⟨k, h⟩) S8x2048.size (k0_off1_inb ⟨k, h⟩)).toLoadRect
        (harg2.unread x0) (ix2 r q)
      = x0 (ix2 ⟨8 * k + r.val, hr⟩ q) := by
  rw [View.readAt_eq_ld, harg2.read_unread]
  show x0 ((Rect.unit (s := S128x2048) (k0_off1 ⟨k, h⟩) S8x2048.size (k0_off1_inb ⟨k, h⟩)).idx (ix2 r q)) = _
  refine congrArg x0 (funext fun a => Fin.ext ?_)
  have e := k0_off1_eq ⟨k, h⟩
  match a with
  | ⟨0, _⟩ =>
    show k0_off1 ⟨k, h⟩ 0 + 1 * r.val = 8 * k + r.val
    rw [e]; simp
  | ⟨1, _⟩ =>
    show k0_off1 ⟨k, h⟩ 1 + 1 * q.val = q.val
    rw [e]; simp

/-- The count of one row of the blocks: the pixels of row n with x0 = a and x1 = b (nothing past the last row). -/
private def rowCnt (x0 x1 : Vec Ideal S128x2048 .i32) (a b : ℕ) (n : ℕ) : EReal :=
  if h : n < 128 then ∑ q : Fin 2048, ind (x0 (ix2 ⟨n, h⟩ q)) a * ind (x1 (ix2 ⟨n, h⟩ q)) b else 0

/-- After k trips: what the loop found plus the count over the first 8·k rows. -/
private theorem accLoop_rows (arg2 : Memref sig .tc .vmem S128x2048 .i32) (harg2 : arg2.IsWhole) (arg3 : Memref sig .tc .vmem S128x2048 .i32) (harg3 : arg3.IsWhole)
    (x0 x1 : Vec Ideal S128x2048 .i32) (xs : Vec Ideal S128x128 .f32) (a b : Fin 128) (k : ℕ) (hk : k ≤ 16) :
    accLoop (F := Ideal) arg2 harg2 arg3 harg3 x0 x1 xs k (ix2 a b)
      = xs (ix2 a b) + ∑ n ∈ Finset.range (8 * k), rowCnt x0 x1 a.val b.val n := by
  induction k with
  | zero => simp [accLoop]
  | succ k ih =>
    have htr : k0_t1_loop.trips = 16 := by decide
    have h : k < k0_t1_loop.trips := by rw [htr]; omega
    rw [accLoop, dif_pos h, Cert.KernelIdeal.Pay.pay2_apply, ih (by omega), add_assoc]
    refine congrArg (xs (ix2 a b) + ·) ?_
    rw [show 8 * (k + 1) = 8 * k + 8 by ring, Finset.sum_range_add,
      Finset.sum_range (fun x => rowCnt x0 x1 a.val b.val (8 * k + x))]
    refine congrArg ((∑ n ∈ Finset.range (8 * k), rowCnt x0 x1 a.val b.val n) + ·) ?_
    refine Finset.sum_congr rfl (fun r _ => ?_)
    have hr : 8 * k + r.val < 128 := by have := r.isLt; omega
    unfold rowCnt
    rw [dif_pos hr]
    refine Finset.sum_congr rfl (fun q _ => ?_)
    rw [rows8 arg2 harg2 x0 k h r q hr, rows8 arg3 harg3 x1 k h r q hr]

/-- On the extended reals, after all sixteen trips: what the loop found plus the count over the blocks' 128 rows. -/
theorem accLoop_apply (arg2 : Memref sig .tc .vmem S128x2048 .i32) (harg2 : arg2.IsWhole) (arg3 : Memref sig .tc .vmem S128x2048 .i32) (harg3 : arg3.IsWhole)
    (x0 x1 : Vec Ideal S128x2048 .i32) (xs : Vec Ideal S128x128 .f32) (a b : Fin 128) :
    accLoop (F := Ideal) arg2 harg2 arg3 harg3 x0 x1 xs 16 (ix2 a b)
      = xs (ix2 a b) + ∑ r : Fin 128, ∑ q : Fin 2048, ind (x0 (ix2 r q)) a.val * ind (x1 (ix2 r q)) b.val := by
  rw [accLoop_rows arg2 harg2 arg3 harg3 x0 x1 xs a b 16 (le_refl _), Finset.sum_range]
  refine congrArg (xs (ix2 a b) + ·) ?_
  refine Finset.sum_congr rfl (fun r _ => ?_)
  unfold rowCnt
  rw [dif_pos r.isLt]

end Cert.KernelIdeal.Hand

end
-- ==== Proof.KI.Pieces.lean ====
/-
  What each case of the body leaves, named.

  The accumulator after the first block of a half is the sixteen-fold update of the zero fill; after a later block the
  sixteen-fold update of what the block before left; the result block's buffer at the last block of a half holds the
  accumulator it was copied from, with a leading unit axis.
-/
import proofs.«402470_j15049565405346_3_alg».proof.Proof.KI.Frame
import proofs.«402470_j15049565405346_3_alg».proof.Proof.KI.LoopVal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin S128x128.rank → ℕ) = fun _ => 0 := by
  funext a; fin_cases a <;> rfl
theorem hz3 : (![0, 0, 0] : Fin S1x128x128.rank → ℕ) = fun _ => 0 := by
  funext a; fin_cases a <;> rfl

/-- The zero fill as the one piece it is: the whole accumulator, all zeros. -/
def zeroFill : List (View.Piece (Elt F) S128x128 .f32) :=
  [⟨Rect.unit ![0, 0] S128x128.size inb_S128x128_S128x128_0_0, k0_pay1⟩]

/-- The zero fill read back is the zero vector, whatever it was written over. -/
theorem read_zeroFill (arg5 : Memref sig .tc .vmem S128x128 .f32) (f : BufTy.Contents (Elt F) arg5.view.ty) :
    arg5.view.read (Elt F) (arg5.view.writes (Elt F) f (zeroFill (F := F))) = k0_pay1 (F := F) := by
  have hcov : ∀ y : S128x128.Idx, ∃ p ∈ (zeroFill (F := F)), y ∈ p.1.set := fun y =>
    ⟨_, List.mem_singleton_self _, View.mem_set_unit_zero (S := S128x128) hz2 inb_S128x128_S128x128_0_0 y⟩
  rw [View.read_writes_eq_canon _ _ _ hcov]
  exact View.canon_unit_zero (Val := Elt F) (S := S128x128) (e := .f32) hz2 inb_S128x128_S128x128_0_0 (k0_pay1 (F := F))

/-- A middle block: the sixteen-fold update of what it found. -/
theorem sout0_B_eq (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : ¬cond0_1 i)
    (x0 x1 : Vec F S128x2048 .i32) (xs0 : Vec F S128x128 .f32) :
    sout0_B c i arg2 harg2 arg3 harg3 arg4 harg4 arg5 harg5 hc0 hc1 x0 x1 xs0 = accLoop arg2 harg2 arg3 harg3 x0 x1 xs0 16 := by
  unfold sout0_B
  rw [View.read_writes_eq_canon _ _ _ (scover0_B c i arg2 harg2 arg3 harg3 arg4 harg4 arg5 harg5 hc0 hc1 x0 x1 xs0)]
  rw [← View.read_writes_eq_canon arg5.view (harg5.unread xs0) _ (scover0_B c i arg2 harg2 arg3 harg3 arg4 harg4 arg5 harg5 hc0 hc1 x0 x1 xs0)]
  have hL : (kernelRun0_B c i arg2 harg2 arg3 harg3 arg4 harg4 arg5 harg5 hc0 hc1 x0 x1 xs0).2.1
      = pb_k0_t1 (F := F) Variants.none c none i arg2 harg2 arg3 harg3 arg4 harg4 arg5 harg5 (harg2.unread x0) (harg3.unread x1) (harg5.unread xs0) 16 := by
    unfold kernelRun0_B; rfl
  rw [hL, loop_read Variants.none c none i arg2 harg2 arg3 harg3 arg4 harg4 arg5 harg5 x0 x1 (harg5.unread xs0) 16 (by decide), harg5.read_unread]

/-- The last block of a half leaves the accumulator as a middle block does. -/
theorem sout0_C_eq (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i)
    (x0 x1 : Vec F S128x2048 .i32) (xs0 : Vec F S128x128 .f32) :
    sout0_C c i arg2 harg2 arg3 harg3 arg4 harg4 arg5 harg5 hc0 hc1 x0 x1 xs0 = accLoop arg2 harg2 arg3 harg3 x0 x1 xs0 16 := by
  unfold sout0_C
  rw [View.read_writes_eq_canon _ _ _ (scover0_C c i arg2 harg2 arg3 harg3 arg4 harg4 arg5 harg5 hc0 hc1 x0 x1 xs0)]
  rw [← View.read_writes_eq_canon arg5.view (harg5.unread xs0) _ (scover0_C c i arg2 harg2 arg3 harg3 arg4 harg4 arg5 harg5 hc0 hc1 x0 x1 xs0)]
  have hL : (kernelRun0_C c i arg2 harg2 arg3 harg3 arg4 harg4 arg5 harg5 hc0 hc1 x0 x1 xs0).2.1
      = pb_k0_t1 (F := F) Variants.none c none i arg2 harg2 arg3 harg3 arg4 harg4 arg5 harg5 (harg2.unread x0) (harg3.unread x1) (harg5.unread xs0) 16 := by
    unfold kernelRun0_C; rfl
  rw [hL, loop_read Variants.none c none i arg2 harg2 arg3 harg3 arg4 harg4 arg5 harg5 x0 x1 (harg5.unread xs0) 16 (by decide), harg5.read_unread]

/-- The result block's buffer at the last block of a half: the accumulator just computed, copied. -/
theorem out0_C_eq (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i)
    (x0 x1 : Vec F S128x2048 .i32) (xs0 : Vec F S128x128 .f32) :
    out0_C c i arg2 harg2 arg3 harg3 arg4 harg4 arg5 harg5 hc0 hc1 x0 x1 xs0 = k0_pay3 (accLoop arg2 harg2 arg3 harg3 x0 x1 xs0 16) := by
  unfold out0_C
  rw [View.read_writes_eq_canon _ _ _ (cover0_C c i arg2 harg2 arg3 harg3 arg4 harg4 arg5 harg5 hc0 hc1 x0 x1 xs0)]
  unfold kernelRun0_C; dsimp only
  sl_unfold_words
  rw [View.canon_unit_zero (S := S1x128x128) hz3]
  refine congrArg k0_pay3 ?_
  rw [View.readAt_eq_ld, View.ld_unit_zero (S := S128x128) hz2]
  exact (loop_read Variants.none c none i arg2 harg2 arg3 harg3 arg4 harg4 arg5 harg5 x0 x1 (harg5.unread xs0) 16 (by decide)).trans
    (by rw [harg5.read_unread])

/-- The first block of a half: the sixteen-fold update of the zero fill. -/
theorem sout0_A_eq (c : Dev nD) (i : grid0.Coords) (arg2 : Memref sig .tc .vmem S128x2048 .i32) (harg2 : arg2.IsWhole) (arg3 : Memref sig .tc .vmem S128x2048 .i32) (harg3 : arg3.IsWhole) (arg4 : Memref sig .tc .vmem S1x128x128 .f32) (harg4 : arg4.IsWhole) (arg5 : Memref sig .tc .vmem S128x128 .f32) (harg5 : arg5.IsWhole) (hc0 : cond0_0 i) (hc1 : ¬cond0_1 i)
    (x0 x1 : Vec F S128x2048 .i32) :
    sout0_A c i arg2 harg2 arg3 harg3 arg4 harg4 arg5 harg5 hc0 hc1 x0 x1 = accLoop arg2 harg2 arg3 harg3 x0 x1 (k0_pay1 (F := F)) 16 := by
  unfold sout0_A
  rw [View.read_writes_eq_canon _ _ _ (scover0_A c i arg2 harg2 arg3 harg3 arg4 harg4 arg5 harg5 hc0 hc1 x0 x1)]
  rw [← View.read_writes_eq_canon arg5.view arg5.view.junk _ (scover0_A c i arg2 harg2 arg3 harg3 arg4 harg4 arg5 harg5 hc0 hc1 x0 x1)]
  have hL : (kernelRun0_A c i arg2 harg2 arg3 harg3 arg4 harg4 arg5 harg5 hc0 hc1 x0 x1).2.1
      = pb_k0_t1 (F := F) Variants.none c none i arg2 harg2 arg3 harg3 arg4 harg4 arg5 harg5 (harg2.unread x0) (harg3.unread x1)
          (arg5.view.writes (Elt F) arg5.view.junk (zeroFill (F := F))) 16 ++ zeroFill (F := F) := by
    unfold kernelRun0_A zeroFill; dsimp only; sl_unfold_words; rfl
  rw [hL, View.writes_append,
    loop_read Variants.none c none i arg2 harg2 arg3 harg3 arg4 harg4 arg5 harg5 x0 x1 (arg5.view.writes (Elt F) arg5.view.junk (zeroFill (F := F))) 16 (by decide)]
  exact congrArg (fun z => accLoop arg2 harg2 arg3 harg3 x0 x1 z 16) (read_zeroFill arg5 arg5.view.junk)

end Cert.KernelIdeal.Hand

end
-- ==== Proof.KI.AccVal.lean ====
/-
  What the accumulator and the result block hold, on the extended reals.

  After grid point t, in half h = t / 8 of the image, the accumulator's entry (a, b) is the number of pixels in rows
  1024·h … 128·t + 127 whose first label is a and second label is b: the zero fill starts the half, and each block
  adds the count of its own 128 rows.  At the last block of a half (t = 8·h + 7) the result block receives the
  accumulator: the count over the whole half.
-/
import proofs.«402470_j15049565405346_3_alg».proof.Proof.KI.Pieces
import proofs.«402470_j15049565405346_3_alg».proof.Proof.KI.Blocks
import proofs.«402470_j15049565405346_3_alg».proof.Proof.RowSums

set_option maxRecDepth 16384

noncomputable section

namespace Cert.KernelIdeal.Hand

open Cert.KernelIdeal Cert.KernelIdeal.Gen Cert.Hist
open Idealize.ShloMosaic Idealize.ShloMosaic.TcCoe Idealize.ShloMosaic.ValueIdx
open Idealize.SL Idealize.SL.Sem

variable (m : (ℓ : Loc nD τ sig) → Buf (Elt Ideal) ℓ)

/-- The two label images as launched, on core c. -/
abbrev imgP (c : Dev nD) : (⟨2, ![2048, 2048]⟩ : Shape).Idx → BitVec 32 := m ((c : Thread nD τ).loc main_arg0)
abbrev imgT (c : Dev nD) : (⟨2, ![2048, 2048]⟩ : Shape).Idx → BitVec 32 := m ((c : Thread nD τ).loc main_arg1)

/-- The count over the 128 rows of the blocks fetched at point t. -/
theorem block_cnt (c : Dev nD) (t : Fin cfg0.N) (a b : Fin 128) :
    (∑ r : Fin 128, ∑ q : Fin 2048, ind (iblk m c 0 t (ix2 r q)) a.val * ind (iblk m c 1 t (ix2 r q)) b.val)
      = cntRows (imgP m c) (imgT m c) a.val b.val (rowsIn (128 * t.val) (128 * t.val + 128)) := by
  have hb : 128 * t.val + 128 ≤ 2048 := by
    have := t.isLt; have hN : cfg0.N = 16 := N_0; omega
  rw [cntRows_rowsIn_block (imgP m c) (imgT m c) a.val b.val (128 * t.val) 128 hb]
  refine Finset.sum_congr rfl fun r _ => Finset.sum_congr rfl fun q _ => ?_
  rw [iblk0_apply m c t r q, iblk1_apply m c t r q]

theorem outsAt0_irrel (c : Dev nD) (n n' : ℕ) (h : n < cfg0.N) (h' : n' < cfg0.N) (e : n = n') :
    outsAt0 m c n h = outsAt0 m c n' h' := by
  subst e; rfl

/-- The accumulator after point n: the count over the rows of its half seen so far. -/
theorem acc_val (c : Dev nD) : ∀ (n : ℕ) (hn : n < cfg0.N) (a b : Fin 128),
    (outsAt0 m c n hn).2 (ix2 a b) = cntRows (imgP m c) (imgT m c) a.val b.val (rowsIn (1024 * (n / 8)) (128 * n + 128)) := by
  intro n
  induction n with
  | zero =>
    intro hn a b
    rw [outsAt0_A m c ⟨0, hn⟩ (Nat.zero_mod 8)]
    dsimp only
    rw [sout0_A_eq, accLoop_apply, Cert.KernelIdeal.Pay.pay1_apply, zero_add, block_cnt]
    rfl
  | succ n ih =>
    intro hn a b
    have hN : n + 1 < 16 := lt_of_lt_of_eq hn N_0
    by_cases h0 : (n + 1) % 8 = 0
    · rw [outsAt0_A m c ⟨n + 1, hn⟩ h0]
      dsimp only
      rw [sout0_A_eq, accLoop_apply, Cert.KernelIdeal.Pay.pay1_apply, zero_add, block_cnt]
      dsimp only
      rw [show 1024 * ((n + 1) / 8) = 128 * (n + 1) by omega]
    · have hprev : (outsAt0 m c ((⟨n + 1, hn⟩ : Fin cfg0.N).val - 1) (Nat.lt_of_le_of_lt (Nat.sub_le _ _) (⟨n + 1, hn⟩ : Fin cfg0.N).isLt)).2 (ix2 a b)
          = cntRows (imgP m c) (imgT m c) a.val b.val (rowsIn (1024 * (n / 8)) (128 * n + 128)) := by
        rw [outsAt0_irrel m c _ n _ (Nat.lt_of_succ_lt hn) (Nat.add_sub_cancel n 1)]
        exact ih (Nat.lt_of_succ_lt hn) a b
      have harith : cntRows (imgP m c) (imgT m c) a.val b.val (rowsIn (1024 * (n / 8)) (128 * n + 128))
            + cntRows (imgP m c) (imgT m c) a.val b.val (rowsIn (128 * (n + 1)) (128 * (n + 1) + 128))
          = cntRows (imgP m c) (imgT m c) a.val b.val (rowsIn (1024 * ((n + 1) / 8)) (128 * (n + 1) + 128)) := by
        rw [show 1024 * ((n + 1) / 8) = 1024 * (n / 8) by omega, show 128 * (n + 1) = 128 * n + 128 by omega]
        exact (cntRows_rowsIn_append (imgP m c) (imgT m c) a.val b.val (by omega) (by omega)).symm
      by_cases h1 : (n + 1) % 8 = 7
      · rw [outsAt0_C m c ⟨n + 1, hn⟩ h0 h1]
        dsimp only
        rw [sout0_C_eq, accLoop_apply, block_cnt, hprev]
        exact harith
      · rw [outsAt0_B m c ⟨n + 1, hn⟩ h0 h1]
        dsimp only
        rw [sout0_B_eq, accLoop_apply, block_cnt, hprev]
        exact harith

/-- The result block's buffer at the last block of half h: the count over the whole half. -/
theorem out_val (c : Dev nD) (t : Fin cfg0.N) (h7 : t.val % 8 = 7) (a b : Fin 128) :
    (outsAt0 m c t.val t.isLt).1 (ix3 (0 : Fin 1) a b)
      = cntRows (imgP m c) (imgT m c) a.val b.val (rowsIn (1024 * (t.val / 8)) (1024 * (t.val / 8) + 1024)) := by
  have h0 : ¬ t.val % 8 = 0 := by omega
  have hN : t.val < 16 := lt_of_lt_of_eq t.isLt N_0
  have hacc := acc_val m c t.val t.isLt a b
  rw [outsAt0_C m c t h0 h7] at hacc ⊢
  dsimp only at hacc ⊢
  rw [sout0_C_eq] at hacc
  rw [out0_C_eq, Cert.KernelIdeal.Pay.pay3_apply, hacc]
  rw [show 128 * t.val + 128 = 1024 * (t.val / 8) + 1024 by omega]

end Cert.KernelIdeal.Hand

end
-- ==== Proof.KI.Value.lean ====
/-
  The idealized kernel's program ends with the score of the co-occurrence count.

  The region's result array [2 × 128 × 128] is written back once per half of the image, at the last block of the
  half, from the result block's buffer, which then holds the count over the rows of that half; the two blocks
  written back tile the array, so after the region entry (h, a, b) of the array is the number of pixels in rows
  1024 · h … 1024 · h + 1023 whose first label is a and second label is b.  The lines after the region add the two
  halves, keep the corner [0:65, 0:65], which is the confusion matrix over the labels 0 … 64, and compute the
  score of it.  The two images are arrays of the region that no block writes back, so they end as launched.
-/
import proofs.«402470_j15049565405346_3_alg».proof.Proof.KI.Frame
import proofs.«402470_j15049565405346_3_alg».proof.Proof.KI.TailRead
import proofs.«402470_j15049565405346_3_alg».proof.Proof.KI.HostConf
import proofs.«402470_j15049565405346_3_alg».proof.Proof.KI.Blocks
import proofs.«402470_j15049565405346_3_alg».proof.Proof.KI.AccVal
import proofs.«402470_j15049565405346_3_alg».proof.Proof.RowSums
import proofs.«402470_j15049565405346_3_alg».proof.Proof.Spec

set_option maxRecDepth 16384

noncomputable section

namespace Cert.KernelIdeal.Hand

open Cert.KernelIdeal Cert.KernelIdeal.Gen Cert.Hist
open Idealize.ShloMosaic Idealize.ShloMosaic.TcCoe Idealize.ShloMosaic.ValueIdx
open Idealize.SL Idealize.SL.Sem
open Idealize.ShloMosaic.Pipeline (Dat Cfg Window BodyObligation cellOf)

variable (m : (ℓ : Loc nD τ sig) → Buf (Elt Ideal) ℓ)

/-- What the region's result array ends holding: entry (h, a, b) is the number of pixels in the rows of half h
    whose first label is a and second label is b. -/
def Gout (c : Dev nD) : FVec Ideal S2x128x128 .f32 := fun j =>
  cntRows (imgP m c) (imgT m c) (j 1).val (j 2).val (rowsIn (1024 * (j 0).val) (1024 * (j 0).val + 1024))

/-- An index of a [1 × 128 × 128] block has leading coordinate 0. -/
private theorem idx_block (j : (⟨3, ![1, 128, 128]⟩ : Shape).Idx) : j = ix3 (0 : Fin 1) (j 1) (j 2) := by
  funext d
  match d with
  | ⟨0, _⟩ => exact Subsingleton.elim (α := Fin 1) _ _
  | ⟨1, _⟩ => rfl
  | ⟨2, _⟩ => rfl

/-- What a point that writes back writes: its block of the per-half counts.  Such a point is the last block of a
    half, where the result block's buffer holds the count over the whole half. -/
theorem flushed_eq (c : Dev nD) (t : Fin cfg0.N) (hf : (cfg0.win 2).flush t = true) :
    (dats m 0 c).flushed 2 t = ((cfg0.win 2).blk t).view.read (Elt Ideal) (Gout m c) := by
  show (cfg0.win 2).cut (grid0.coords t) ((dats m 0 c).after 2 t) = _
  rw [after0_2]
  have h7 : t.val % 8 = 7 := (flush0_2 t).mp hf
  funext j
  obtain ⟨a, b, rfl⟩ : ∃ a b : Fin 128, j = ix3 (0 : Fin 1) a b := ⟨j 1, j 2, idx_block j⟩
  show (outsAt0 m c t.val t.isLt).1 (ix3 (0 : Fin 1) a b) = _
  exact (out_val m c t h7 a b).trans (blk2_read (Gout m c) t a b).symm

/-- The result array after the region: the per-half counts, every entry written back by the last block of its half. -/
theorem final (c : Dev nD) : (dats m 0 c).arrAt 2 cfg0.N = Gout m c :=
  (dats m 0 c).arrAt_eq_of_cover 2 (Gout m c) (fun t hf => flushed_eq m c t hf) blk2_cover

/-- Every weakly fair execution of the idealized kernel's program ends with its result at the score of the
    co-occurrence count of the two images, and the images unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v46) = Cert.RefSide.tailR (F := Ideal) (conf (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
      -- the result buffer is no array of the region: it ends at what the lines after the region compute
      have hmem : main_v46 ∈ Pipeline.restRefs sig (cfgs 0).spec :=
        Pipeline.mem_restRefs_of main_v46 rfl (by decide)
      -- those lines find the region's result array at the per-half counts
      have hW : (Pipeline.withArrays spec0 c (V0 m c) (fun w => (dats m 0 c).arrAt w cfg0.N) (Proc.devRef .tc main_v0)
          : FVec Ideal S2x128x128 .f32) = Gout m c :=
        (Pipeline.withArrays_arr spec0 launch0.win.arr_inj c (V0 m c) (fun w => (dats m 0 c).arrAt w cfg0.N) 2).trans (final m c)
      refine ⟨?_, ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩
      refine ((h c).2 main_v46 hmem).trans ((tail_read m (dats m) c).trans ?_)
      rw [hW]
      exact congrArg (Cert.RefSide.tailR (F := Ideal))
        (Cert.KernelIdeal.HostConf.host_conf (imgP m c) (imgT m c) (Gout m c) (fun h a b => rfl)))
    (run_main m ρ)

end Cert.KernelIdeal.Hand

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibLayoutReads.lean ====
/-
  Layout operations of index vectors, read at one element given by its coordinates.

  A vector of n entries cut from position o on reads, at position j, the source at position o + j.  A
  matrix of a rows and b columns and the vector of its a·b entries laid row after row are the same
  numbers: entry (i, j) of the matrix is entry i·b + j of the vector, whichever of the two is the
  reshape of the other.  A vector made a column, by a reshape or by a broadcast along a new unit axis,
  reads at (i, 0) the vector's entry i.  Three vectors laid end to end read, at a position, the first
  vector there if the position is below its length, else the second at the position less the first's
  length if that is below the second's length, else the third at the position less both lengths.  Two
  matrices of equal width stacked read, at row r, the upper matrix's row r if r is below its height,
  else the lower matrix's row r less that height.
-/
import Idealize.ShloMosaic.Lib.ValueLayout

namespace Cert.Gcn.LayoutReads

open Idealize.ShloMosaic Idealize.ShloMosaic.ValueIdx

variable {α : Type}

/-! ## A vector cut from a position on -/

/-- A vector cut from `o` on reads, at `j`, the source at `k = o + j`. -/
theorem slice1_apply {n m : Nat} (o : Nat) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-! ## A matrix and the vector of its entries laid row after row -/

/-- The vector of a matrix's entries reads, at position `k = i·b + j`, the matrix at `(i, j)`. -/
theorem shapeCast_ab_n_apply {a b n : Nat} (x : (⟨2, ![a, b]⟩ : Shape).Idx → α)
    (h : (⟨2, ![a, b]⟩ : Shape).ShapeCasts ⟨1, ![n]⟩) (k : Fin n) (i : Fin a) (j : Fin b)
    (hk : k.val = i.val * b + j.val) :
    shapeCast ⟨1, ![n]⟩ x h (ix1 k) = x (ix2 i j) :=
  shapeCast_apply x h _ _ (by
    rw [Shape.rowMajor_val_two, Shape.rowMajor_val_one]
    show i.val * b + j.val = k.val
    exact hk.symm)

/-- A vector folded into rows of length `b` reads, at `(i, j)`, the vector at position `k = i·b + j`. -/
theorem shapeCast_n_ab_apply {a b n : Nat} (x : (⟨1, ![n]⟩ : Shape).Idx → α)
    (h : (⟨1, ![n]⟩ : Shape).ShapeCasts ⟨2, ![a, b]⟩) (i : Fin a) (j : Fin b) (k : Fin n)
    (hk : k.val = i.val * b + j.val) :
    shapeCast ⟨2, ![a, b]⟩ x h (ix2 i j) = x (ix1 k) :=
  shapeCast_apply x h _ _ (by
    rw [Shape.rowMajor_val_two, Shape.rowMajor_val_one]
    show k.val = i.val * b + j.val
    exact hk)

/-- A vector made a column by a reshape reads, at `(i, 0)`, the vector's entry `i`. -/
theorem shapeCast_a_a1_apply {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_n_ab_apply x h i u i (by have := u.isLt; omega)

/-- A vector made a column by a broadcast along a new unit axis reads, at `(i, 0)`, the vector's entry `i`. -/
theorem broadcastInDim_a_a1_apply {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x _ _ (fun ax => by
    match ax with
    | ⟨0, _⟩ =>
      show i.val = if a = 1 then 0 else i.val
      split
      · have := i.isLt; omega
      · rfl)

/-! ## Three vectors laid end to end -/

section Concat3
variable {n1 n2 n3 n : Nat} (x1 : (⟨1, ![n1]⟩ : Shape).Idx → α) (x2 : (⟨1, ![n2]⟩ : Shape).Idx → α)
  (x3 : (⟨1, ![n3]⟩ : Shape).Idx → α)
  (h : Shape.Concatenates [(⟨1, ![n1]⟩ : Shape), ⟨1, ![n2]⟩, ⟨1, ![n3]⟩] ⟨1, ![n]⟩ 0)

/-- Below the first length: the first vector at the same position. -/
theorem concat3_fst_apply (k : Fin n) (i : Fin n1) (hk : k.val = i.val) :
    concatenate ⟨1, ![n]⟩ 0 [⟨⟨1, ![n1]⟩, x1⟩, ⟨⟨1, ![n2]⟩, x2⟩, ⟨⟨1, ![n3]⟩, x3⟩] h (ix1 k) = x1 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    0 (by simp) ⟨1, ![n1]⟩ x1 rfl rfl 0 rfl (ix1 i)
    (fun b hb => absurd (Subsingleton.elim _ _) hb)
    (by show 0 + i.val = k.val; omega)

/-- From the first length on and below the first two: the second vector at the position less the first length. -/
theorem concat3_snd_apply (k : Fin n) (i : Fin n2) (hk : k.val = n1 + i.val) :
    concatenate ⟨1, ![n]⟩ 0 [⟨⟨1, ![n1]⟩, x1⟩, ⟨⟨1, ![n2]⟩, x2⟩, ⟨⟨1, ![n3]⟩, x3⟩] h (ix1 k) = x2 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    1 (by simp) ⟨1, ![n2]⟩ x2 rfl rfl n1 (by simp) (ix1 i)
    (fun b hb => absurd (Subsingleton.elim _ _) hb)
    (by show n1 + i.val = k.val; omega)

/-- From the first two lengths on: the third vector at the position less both. -/
theorem concat3_thd_apply (k : Fin n) (i : Fin n3) (hk : k.val = n1 + n2 + i.val) :
    concatenate ⟨1, ![n]⟩ 0 [⟨⟨1, ![n1]⟩, x1⟩, ⟨⟨1, ![n2]⟩, x2⟩, ⟨⟨1, ![n3]⟩, x3⟩] h (ix1 k) = x3 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    2 (by simp) ⟨1, ![n3]⟩ x3 rfl rfl (n1 + n2) (by simp) (ix1 i)
    (fun b hb => absurd (Subsingleton.elim _ _) hb)
    (by show n1 + n2 + i.val = k.val; omega)

end Concat3

/-! ## Two matrices of one width stacked -/

section Stack2
variable {m1 m2 m f : Nat} (x1 : (⟨2, ![m1, f]⟩ : Shape).Idx → α) (x2 : (⟨2, ![m2, f]⟩ : Shape).Idx → α)
  (h : Shape.Concatenates [(⟨2, ![m1, f]⟩ : Shape), ⟨2, ![m2, f]⟩] ⟨2, ![m, f]⟩ 0)

/-- A row below the upper height: the upper matrix's row. -/
theorem stack2_top_apply (r : Fin m) (c : Fin f) (i : Fin m1) (hr : r.val = i.val) :
    concatenate ⟨2, ![m, f]⟩ 0 [⟨⟨2, ![m1, f]⟩, x1⟩, ⟨⟨2, ![m2, f]⟩, x2⟩] h (ix2 r c) = x1 (ix2 i c) :=
  concatenate_pair_apply_left (0 : Fin 2) x1 x2 h (ix2 r c) rfl (ix2 i c) (fun b => by
    match b with
    | ⟨0, _⟩ => exact hr.symm
    | ⟨1, _⟩ => rfl)

/-- A row from the upper height on: the lower matrix's row, the upper height less. -/
theorem stack2_bot_apply (r : Fin m) (c : Fin f) (i : Fin m2) (hr : r.val = m1 + i.val) :
    concatenate ⟨2, ![m, f]⟩ 0 [⟨⟨2, ![m1, f]⟩, x1⟩, ⟨⟨2, ![m2, f]⟩, x2⟩] h (ix2 r c) = x2 (ix2 i c) :=
  concatenate_pair_apply_right (0 : Fin 2) x1 x2 h (ix2 r c) rfl rfl (ix2 i c) (fun b hb => by
    match b, hb with
    | ⟨0, _⟩, hb => exact absurd rfl hb
    | ⟨1, _⟩, _ => rfl)
    (by show i.val + m1 = r.val; omega)

end Stack2

end Cert.Gcn.LayoutReads
-- ==== Proof.LibWordArith.lean ====
/-
  Word arithmetic of the index computations, one 32-bit word at a time.

  The host computes flat positions, rows and columns of the adjacency's entries with signed 32-bit
  operations.  Every word that occurs is a natural number below 2³¹, where the signed and the unsigned
  reading agree; there the operations are the natural numbers' own:

  * floor division (truncating quotient, less one when the signs differ and the remainder is not zero) by
    a positive divisor is the quotient of the values, because both signs are equal or the dividend is zero
    (and then the remainder is zero too);
  * the sign-corrected remainder (truncating remainder, plus the divisor when its sign differs from the
    divisor's and it is not zero) is the remainder of the values, because the truncating remainder of a
    non-negative word by a positive one is non-negative;
  * the maximum with zero and the wrap-around of a negative index (add the extent when below zero) leave
    the word as it is;
  * signed comparisons are the comparisons of the values.
-/
import Idealize.ShloMosaic.PureOps.Ideal
import Idealize.ShloMosaic.Lib.StableHlo.Predicate

noncomputable section

namespace Cert.Gcn.WordArith

open Idealize.ShloMosaic

/-- The sign of a word as a two's-complement integer: 0, −1 or 1. -/
def signW (a : BitVec 32) : BitVec 32 := if a = 0 then 0 else if a.msb then -1 else 1

/-- Floor division, element by element: the truncating quotient, less one where the operands' signs differ
    and the truncating remainder is not zero. -/
def floorDivide (a d : BitVec 32) : BitVec 32 :=
  Scalar.select
    (IntOp.andi (IntOp.cmpi .ne (signW a) (signW d)) (IntOp.cmpi .ne (IntOp.remsi .host a d) 0#32))
    (IntOp.subi (IntOp.divsi .host a d) 1#32) (IntOp.divsi .host a d)

/-- The divisor the remainder really uses: 1 in place of 0. -/
def safeDivisor (d : BitVec 32) : BitVec 32 := Scalar.select (IntOp.cmpi .eq d 0#32) 1#32 d

/-- The remainder with the divisor's sign, element by element: the truncating remainder by the safe divisor,
    plus that divisor where the remainder is not zero and its sign differs from the divisor's. -/
def remainderW (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d)) (IntOp.remsi .host a (safeDivisor d))

/-- The wrap-around of a negative index: the word plus the extent where the word is below zero. -/
def normIdx (a n : BitVec 32) : BitVec 32 := Scalar.select (IntOp.cmpi .slt a 0#32) (IntOp.addi a n) a

/-- The clip from below at zero. -/
def clip0 (a : BitVec 32) : BitVec 32 := IntOp.maxsi 0#32 a

/-! ## Words of small naturals -/

theorem toNat_ofNat_small (k : ℕ) (hk : k < 2 ^ 31) : (BitVec.ofNat 32 k).toNat = k := by
  rw [BitVec.toNat_ofNat]
  exact Nat.mod_eq_of_lt (by omega)

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

/-- A one-bit word is 1 or 0 according to a proposition it is 1 exactly under. -/
theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

/-! ## Signed comparisons of small words -/

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem sge_small {a b : BitVec 32} (ha : a.toNat < 2 ^ 31) (hb : b.toNat < 2 ^ 31) :
    IntOp.cmpi .sge a b = if b.toNat ≤ a.toNat then 1#1 else 0#1 :=
  bit_eq_ite (StableHlo.Predicate.sge_iff_toNat ha hb)

theorem sle_small {a b : BitVec 32} (ha : a.toNat < 2 ^ 31) (hb : b.toNat < 2 ^ 31) :
    IntOp.cmpi .sle a b = if a.toNat ≤ b.toNat then 1#1 else 0#1 :=
  bit_eq_ite (StableHlo.Predicate.sle_iff_toNat ha hb)

theorem sgt_small {a b : BitVec 32} (ha : a.toNat < 2 ^ 31) (hb : b.toNat < 2 ^ 31) :
    IntOp.cmpi .sgt a b = if b.toNat < a.toNat then 1#1 else 0#1 :=
  bit_eq_ite (StableHlo.Predicate.sgt_iff_toNat ha hb)

theorem slt_zero_small {a : BitVec 32} (ha : a.toNat < 2 ^ 31) : IntOp.cmpi .slt a 0#32 = 0#1 := by
  rw [slt_small ha (by decide)]
  exact if_neg (by simp)

/-! ## Clip and wrap-around -/

theorem clip0_small {a : BitVec 32} (ha : a.toNat < 2 ^ 31) : clip0 a = a := by
  have hti := toInt_of_small ha
  have h0 : (0#32 : BitVec 32).toInt = 0 := by decide
  have hs : a.slt 0#32 = false := by
    simp only [BitVec.slt, hti, h0, decide_eq_false_iff_not]; omega
  unfold clip0 IntOp.maxsi
  rw [hs]
  rfl

theorem maxsi_zero_small {a : BitVec 32} (ha : a.toNat < 2 ^ 31) : IntOp.maxsi 0#32 a = a := clip0_small ha

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

/-! ## Division and remainder -/

/-- A small non-negative dividend and a small positive divisor are at neither corner of the signed division. -/
theorem not_corner {a d : BitVec 32} (hd0 : 0 < d.toNat) (hd : d.toNat < 2 ^ 31) : ¬ IntOp.SDivCorner a d := by
  intro hc
  rcases hc with hc | ⟨_, hc⟩
  · rw [hc] at hd0; exact absurd hd0 (by decide)
  · rw [hc] at hd; exact absurd hd (by decide)

theorem divsi_small (u : ArithUnit) {a d : BitVec 32} (ha : a.toNat < 2 ^ 31) (hd0 : 0 < d.toNat) (hd : d.toNat < 2 ^ 31) :
    (IntOp.divsi u a d).toNat = a.toNat / d.toNat := by
  have hm : a.msb = false := BitVec.msb_eq_false_iff_two_mul_lt.mpr (by omega)
  have hmd : d.msb = false := BitVec.msb_eq_false_iff_two_mul_lt.mpr (by omega)
  simp only [IntOp.divsi, if_neg (not_corner hd0 hd), BitVec.sdiv_eq, hm, hmd, BitVec.udiv_eq, BitVec.toNat_udiv]

theorem remsi_small (u : ArithUnit) {a d : BitVec 32} (ha : a.toNat < 2 ^ 31) (hd0 : 0 < d.toNat) (hd : d.toNat < 2 ^ 31) :
    (IntOp.remsi u a d).toNat = a.toNat % d.toNat := by
  have hm : a.msb = false := BitVec.msb_eq_false_iff_two_mul_lt.mpr (by omega)
  have hmd : d.msb = false := BitVec.msb_eq_false_iff_two_mul_lt.mpr (by omega)
  simp only [IntOp.remsi, if_neg (not_corner hd0 hd), BitVec.srem_eq, hm, hmd, BitVec.umod_eq, BitVec.toNat_umod]

/-- The sign of a small positive word is 1. -/
theorem signW_pos {a : BitVec 32} (ha0 : 0 < a.toNat) (ha : a.toNat < 2 ^ 31) : signW a = 1#32 := by
  have hne : a ≠ 0 := by intro h; rw [h] at ha0; exact absurd ha0 (by decide)
  have hm : a.msb = false := BitVec.msb_eq_false_iff_two_mul_lt.mpr (by omega)
  unfold signW
  rw [if_neg hne, hm]
  rfl

/-- Floor division of a small non-negative word by a small positive one is the truncating division: the
    correction never applies. -/
theorem floorDivide_eq_divsi {a d : BitVec 32} (ha : a.toNat < 2 ^ 31) (hd0 : 0 < d.toNat) (hd : d.toNat < 2 ^ 31) :
    floorDivide a d = IntOp.divsi .host a d := by
  have hcond : IntOp.andi (IntOp.cmpi .ne (signW a) (signW d)) (IntOp.cmpi .ne (IntOp.remsi .host a d) 0#32) = 0#1 := by
    by_cases h0 : a.toNat = 0
    · have hr : IntOp.remsi .host a d = 0#32 := by
        apply BitVec.eq_of_toNat_eq
        rw [remsi_small .host ha hd0 hd, h0]
        simp
      rw [hr]
      show (IntOp.cmpi .ne (signW a) (signW d)) &&& (IntOp.cmpi .ne (0#32 : BitVec 32) 0#32) = 0#1
      have : IntOp.cmpi .ne (0#32 : BitVec 32) 0#32 = 0#1 := by decide
      rw [this, BitVec.and_zero]
    · rw [signW_pos (by omega) ha, signW_pos hd0 hd]
      show (IntOp.cmpi .ne (1#32 : BitVec 32) 1#32) &&& _ = 0#1
      have : IntOp.cmpi .ne (1#32 : BitVec 32) 1#32 = 0#1 := by decide
      rw [this, BitVec.zero_and]
  unfold floorDivide
  rw [hcond]
  exact if_neg (by decide)

theorem floorDivide_toNat {a d : BitVec 32} (ha : a.toNat < 2 ^ 31) (hd0 : 0 < d.toNat) (hd : d.toNat < 2 ^ 31) :
    (floorDivide a d).toNat = a.toNat / d.toNat := by
  rw [floorDivide_eq_divsi ha hd0 hd, divsi_small .host ha hd0 hd]

theorem floorDivide_2048 {a : BitVec 32} (ha : a.toNat < 2 ^ 31) : (floorDivide a 2048#32).toNat = a.toNat / 2048 :=
  floorDivide_toNat ha (by decide) (by decide)

theorem floorDivide_one {a : BitVec 32} (ha : a.toNat < 2 ^ 31) : floorDivide a 1#32 = a := by
  apply BitVec.eq_of_toNat_eq
  rw [floorDivide_toNat ha (by decide) (by decide)]
  show a.toNat / 1 = a.toNat
  exact Nat.div_one _

theorem floorDivide_lt {a d : BitVec 32} (ha : a.toNat < 2 ^ 31) (hd0 : 0 < d.toNat) (hd : d.toNat < 2 ^ 31) :
    (floorDivide a d).toNat < 2 ^ 31 := by
  rw [floorDivide_toNat ha hd0 hd]
  exact lt_of_le_of_lt (Nat.div_le_self _ _) ha

/-- A word that is not zero is its own safe divisor. -/
theorem safeDivisor_pos {d : BitVec 32} (hd0 : 0 < d.toNat) : safeDivisor d = d := by
  have hne : ¬ d = 0#32 := by intro h; rw [h] at hd0; exact absurd hd0 (by decide)
  have hc : IntOp.cmpi .eq d 0#32 = 0#1 := by
    rcases BitVec.eq_zero_or_eq_one (IntOp.cmpi .eq d 0#32) with h | h
    · exact h
    · exact absurd (StableHlo.Predicate.cmpi_eq_iff.mp h) hne
  unfold safeDivisor
  rw [hc]
  exact if_neg (by decide)

/-- The sign-corrected remainder of a small non-negative word by a small positive one is the truncating
    remainder: the correction never applies. -/
theorem remainderW_eq_remsi {a d : BitVec 32} (ha : a.toNat < 2 ^ 31) (hd0 : 0 < d.toNat) (hd : d.toNat < 2 ^ 31) :
    remainderW a d = IntOp.remsi .host a d := by
  have hr : (IntOp.remsi .host a d).toNat < 2 ^ 31 := by
    rw [remsi_small .host ha hd0 hd]
    exact lt_trans (Nat.mod_lt _ hd0) hd
  unfold remainderW
  rw [safeDivisor_pos hd0, slt_zero_small hr, slt_zero_small hd]
  have : IntOp.cmpi .ne (0#1 : BitVec 1) 0#1 = 0#1 := by decide
  rw [this]
  show Scalar.select ((0#1 : BitVec 1) &&& _) _ _ = _
  rw [BitVec.zero_and]
  exact if_neg (by decide)

theorem remainderW_toNat {a d : BitVec 32} (ha : a.toNat < 2 ^ 31) (hd0 : 0 < d.toNat) (hd : d.toNat < 2 ^ 31) :
    (remainderW a d).toNat = a.toNat % d.toNat := by
  rw [remainderW_eq_remsi ha hd0 hd, remsi_small .host ha hd0 hd]

theorem remainderW_2048 {a : BitVec 32} (ha : a.toNat < 2 ^ 31) : (remainderW a 2048#32).toNat = a.toNat % 2048 :=
  remainderW_toNat ha (by decide) (by decide)

theorem remainderW_one {a : BitVec 32} (ha : a.toNat < 2 ^ 31) : remainderW a 1#32 = 0#32 := by
  apply BitVec.eq_of_toNat_eq
  rw [remainderW_toNat ha (by decide) (by decide)]
  show a.toNat % 1 = 0
  exact Nat.mod_one _

theorem remainderW_lt {a d : BitVec 32} (ha : a.toNat < 2 ^ 31) (hd0 : 0 < d.toNat) (hd : d.toNat < 2 ^ 31) :
    (remainderW a d).toNat < d.toNat := by
  rw [remainderW_toNat ha hd0 hd]
  exact Nat.mod_lt _ hd0

end Cert.Gcn.WordArith

end
-- ==== Proof.RefValue.lean ====
/-
  The reference's confusion matrix is the co-occurrence count, for label images in range.

  The reference flattens both images, forms the flat position P · 65 + T of each pixel in 32-bit words, and adds
  a unit into a vector of 4225 zeros at that position; the vector reshaped to [65 × 65] is read at (a, b) as the
  sum over the pixels of the indicator "the pixel's word reads a · 65 + b".  With 0 ≤ P, T < 65 the word
  P · 65 + T does not wrap and reads a · 65 + b exactly when P = a and T = b, so the sum is the count.
  The precondition says exactly that both images lie in 0 … 64.
-/
import proofs.«402470_j15049565405346_3_alg».proof.Pre_any_inputs
import proofs.«402470_j15049565405346_3_alg».proof.Proof.Gen.Pre_any_inputs
import proofs.«402470_j15049565405346_3_alg».proof.Proof.Gen.ReferenceIdeal
import proofs.«402470_j15049565405346_3_alg».proof.Proof.Spec
import proofs.«402470_j15049565405346_3_alg».proof.Proof.LibIndexMaps
import proofs.«402470_j15049565405346_3_alg».proof.Proof.LibLayoutReads
import proofs.«402470_j15049565405346_3_alg».proof.Proof.LibWordArith
import Idealize.ShloMosaic.Lib.StableHlo.Predicate
import Idealize.ShloMosaic.Lib.ReduceAll
import Idealize.ShloMosaic.Lib.ValueIdx
import Idealize.ShloMosaic.Lib.IdealHost

noncomputable section

namespace Cert.RefSide

open Cert.ReferenceIdeal Cert.ReferenceIdeal.Gen Cert.Hist
open Idealize.ShloMosaic Idealize.ShloMosaic.ValueIdx

/-- A word that compares signed at least 0 and below 65 reads, unsigned, below 65. -/
private theorem small_of_range (w : BitVec 32) (h0 : (0#32 : BitVec 32).toInt ≤ w.toInt)
    (h1 : w.toInt < (65#32 : BitVec 32).toInt) : w.toNat < 65 := by
  have e0 : (0#32 : BitVec 32).toInt = 0 := by decide
  have e1 : (65#32 : BitVec 32).toInt = 65 := by decide
  rw [e0] at h0
  rw [e1] at h1
  have := w.isLt
  rw [BitVec.toInt_eq_toNat_cond] at h0 h1
  split at h0 <;> omega

/-- The precondition read: every entry of both images is a label 0 … 64. -/
theorem pre_decode (P T : IVec Cert.Pre_any_inputs.S2048x2048 32)
    (h : Cert.Pre_any_inputs.fn (F := Ideal) P T = fun _ => 1#1) :
    (∀ i, (P i).toNat < 65) ∧ (∀ i, (T i).toNat < 65) := by
  haveI : Subsingleton Cert.Pre_any_inputs.S_.Idx := ⟨fun a b => funext fun d => d.elim0⟩
  -- the result's one element is the conjunction of the two images' "all entries in range"
  have h0 := congrFun h ValueIdx.ix0
  dsimp only [Cert.Pre_any_inputs.fn] at h0
  obtain ⟨hA, hB⟩ := IntOp.andi_eq_one.1 h0
  refine ⟨fun i => ?_, fun i => ?_⟩
  · obtain ⟨h1, h2⟩ := IntOp.andi_eq_one.1 (Host.reduce_andi_all _ _ _ _ _ hA i)
    exact small_of_range (P i) (IntOp.cmpi_sge.1 h1) (IntOp.cmpi_slt.1 h2)
  · obtain ⟨h1, h2⟩ := IntOp.andi_eq_one.1 (Host.reduce_andi_all _ _ _ _ _ hB i)
    exact small_of_range (T i) (IntOp.cmpi_sge.1 h1) (IntOp.cmpi_slt.1 h2)

open Cert.Gcn.LayoutReads Cert.Gcn.IndexMaps Cert.Gcn.WordArith

/-- For labels below 65 the flat word x · 65 + y reads a · 65 + b exactly when x reads a and y reads b: the unit
    scattered at that position is the product of the two indicators. -/
private theorem unit_at_flat (x y : BitVec 32) (hx : x.toNat < 65) (hy : y.toNat < 65) (a b : ℕ) (ha : a < 65)
    (hb : b < 65) :
    (if (IntOp.addi (IntOp.muli x 65#32) y).toInt = (((a * 65 + b : ℕ)) : Int) then (1 : EReal) else 0)
      = ind x a * ind y b := by
  have hw : (IntOp.addi (IntOp.muli x 65#32) y).toNat = x.toNat * 65 + y.toNat := by
    show (x * 65#32 + y).toNat = _
    rw [BitVec.toNat_add, BitVec.toNat_mul]
    have h65 : (65#32 : BitVec 32).toNat = 65 := rfl
    rw [h65]
    omega
  unfold ind
  rw [toInt_of_small (a := x) (by omega), toInt_of_small (a := y) (by omega),
    toInt_of_small (a := IntOp.addi (IntOp.muli x 65#32) y) (by rw [hw]; omega), hw]
  split_ifs <;> first | omega | simp

/-- A sum over the 2048 · 2048 flat positions is the sum over rows and columns, position r · 2048 + q. -/
private theorem sum_flat (g : Fin 4194304 → EReal) :
    ∑ p : Fin 4194304, g p = ∑ r : Fin 2048, ∑ q : Fin 2048, g ⟨r.val * 2048 + q.val, by omega⟩ := by
  rw [← Fintype.sum_prod_type (f := fun x : Fin 2048 × Fin 2048 => g ⟨x.1.val * 2048 + x.2.val, by omega⟩)]
  refine (Fintype.sum_equiv (finProdFinEquiv (m := 2048) (n := 2048)) _ g (fun x => ?_)).symm
  refine congrArg g (Fin.ext ?_)
  show x.1.val * 2048 + x.2.val = x.2.val + 2048 * x.1.val
  omega

/-- The accumulating scatter into 4225 places, folded to [65 × 65] and read at (a, b): the operand at a · 65 + b
    plus the updates whose index word reads that position. -/
private theorem scatter_read (x : FVec Ideal S4225 .f32) (idx : IVec S4194304x1 32) (upd : FVec Ideal S4194304 .f32)
    (a b : Fin 65) (hk : a.val * 65 + b.val < 4225) :
    (shapeCast S65x65 (Host.scatterAdd (F := Ideal) scatter_S4225_S4194304x1_S4194304_n_0_0_1 x idx upd)
        shapeCasts_S4225_S65x65 : FVec Ideal S65x65 .f32) (ix2 a b)
      = x (ix1 ⟨a.val * 65 + b.val, hk⟩)
        + ∑ p : Fin 4194304, if (idx (ix2 p (0 : Fin 1))).toInt = (((a.val * 65 + b.val : ℕ)) : Int)
            then upd (ix1 p) else 0 := by
  refine (shapeCast_n_ab_apply _ _ a b ⟨a.val * 65 + b.val, hk⟩ rfl).trans ?_
  unfold Host.scatterAdd
  rw [Ideal.hostScatterAdd_def]
  exact hostScatterAdd1_apply scatter_S4225_S4194304x1_S4194304_n_0_0_1 rfl rfl rfl rfl x idx upd
    ⟨a.val * 65 + b.val, hk⟩

/-- The index column at (p, 0), p = r · 2048 + q: the flat word of the pixel (r, q). -/
private theorem idx_read (P T : IVec S2048x2048 32) (r q : Fin 2048) (hp : r.val * 2048 + q.val < 4194304) :
    (broadcastInDim S4194304x1 ![0] bcast_S4194304_S4194304x1_0
        (addi (muli (shapeCast S4194304 P shapeCasts_S2048x2048_S4194304)
            (broadcastInDim S4194304 ![] bcast_S_S4194304 (constantI S_ 32 65#32)))
          (shapeCast S4194304 T shapeCasts_S2048x2048_S4194304))) (ix2 ⟨r.val * 2048 + q.val, hp⟩ (0 : Fin 1))
      = IntOp.addi (IntOp.muli (P (ix2 r q)) 65#32) (T (ix2 r q)) := by
  refine (broadcastInDim_a_a1_apply _ _ ⟨r.val * 2048 + q.val, hp⟩ 0).trans ?_
  have e1 := shapeCast_ab_n_apply P shapeCasts_S2048x2048_S4194304 ⟨r.val * 2048 + q.val, hp⟩ r q rfl
  have e2 := shapeCast_ab_n_apply T shapeCasts_S2048x2048_S4194304 ⟨r.val * 2048 + q.val, hp⟩ r q rfl
  have e3 := broadcastInDim_scalar_apply bcast_S_S4194304 (constantI S_ 32 65#32)
    (ix1 (⟨r.val * 2048 + q.val, hp⟩ : Fin 4194304))
  exact congrArg₂ IntOp.addi (congrArg₂ IntOp.muli e1 e3) e2

/-- The scattered-into vector is zero everywhere. -/
private theorem zeros_read (k : Fin 4225) :
    broadcastInDim S4225 ![] bcast_S_S4225 (constant (F := Ideal) S_ .f32 0x00000000#32) (ix1 k) = 0 :=
  (broadcastInDim_scalar_apply _ _ _).trans Ideal.ofBits_zero_f32

/-- Every update is one. -/
private theorem ones_read (p : Fin 4194304) :
    broadcastInDim S4194304 ![] bcast_S_S4194304 (constant (F := Ideal) S_ .f32 0x3F800000#32) (ix1 p) = 1 :=
  (broadcastInDim_scalar_apply _ _ _).trans Ideal.ofBits_one_f32

/-- The reshaped histogram read at (a, b): the count of the pixels with P = a and T = b. -/
private theorem ref_conf_at (P T : IVec S2048x2048 32) (hP : ∀ i, (P i).toNat < 65) (hT : ∀ i, (T i).toNat < 65)
    (a b : Fin 65) :
    (shapeCast S65x65 (Host.scatterAdd (F := Ideal) scatter_S4225_S4194304x1_S4194304_n_0_0_1
        (broadcastInDim S4225 ![] bcast_S_S4225 (constant S_ .f32 0x00000000#32))
        (broadcastInDim S4194304x1 ![0] bcast_S4194304_S4194304x1_0
          (addi (muli (shapeCast S4194304 P shapeCasts_S2048x2048_S4194304)
              (broadcastInDim S4194304 ![] bcast_S_S4194304 (constantI S_ 32 65#32)))
            (shapeCast S4194304 T shapeCasts_S2048x2048_S4194304)))
        (broadcastInDim S4194304 ![] bcast_S_S4194304 (constant S_ .f32 0x3F800000#32))) shapeCasts_S4225_S65x65
      : FVec Ideal S65x65 .f32) (ix2 a b) = cnt P T a.val b.val := by
  have hk : a.val * 65 + b.val < 4225 := by have := a.isLt; have := b.isLt; omega
  refine (scatter_read _ _ _ a b hk).trans ?_
  rw [zeros_read, zero_add]
  refine (sum_flat _).trans ?_
  unfold cnt
  refine Finset.sum_congr rfl (fun r _ => Finset.sum_congr rfl (fun q _ => ?_))
  beta_reduce
  rw [idx_read P T r q _, ones_read]
  exact unit_at_flat _ _ (hP _) (hT _) a.val b.val a.isLt b.isLt

/-- The reference's scattered and reshaped histogram is the count. -/
theorem ref_conf (P T : IVec S2048x2048 32) (hP : ∀ i, (P i).toNat < 65) (hT : ∀ i, (T i).toNat < 65) :
    (shapeCast S65x65 (Host.scatterAdd (F := Ideal) scatter_S4225_S4194304x1_S4194304_n_0_0_1
        (broadcastInDim S4225 ![] bcast_S_S4225 (constant S_ .f32 0x00000000#32))
        (broadcastInDim S4194304x1 ![0] bcast_S4194304_S4194304x1_0
          (addi (muli (shapeCast S4194304 P shapeCasts_S2048x2048_S4194304)
              (broadcastInDim S4194304 ![] bcast_S_S4194304 (constantI S_ 32 65#32)))
            (shapeCast S4194304 T shapeCasts_S2048x2048_S4194304)))
        (broadcastInDim S4194304 ![] bcast_S_S4194304 (constant S_ .f32 0x3F800000#32))) shapeCasts_S4225_S65x65
      : FVec Ideal S65x65 .f32) = conf P T := by
  funext j
  rw [eq_ix2 j]
  exact ref_conf_at P T hP hT (j 0) (j 1)

end Cert.RefSide

end
-- ==== Proof.RefAsm.lean ====
/-
  The reference program's run, read through the score function.

  The reference's result is the score function applied to its scattered and reshaped histogram; for label images
  in range that histogram is the co-occurrence count, so the reference ends with the score of the confusion matrix
  of its two argument images, and leaves the arguments as they were.
-/
import proofs.«402470_j15049565405346_3_alg».proof.Proof.RefRunP
import proofs.«402470_j15049565405346_3_alg».proof.Proof.TailFn
import proofs.«402470_j15049565405346_3_alg».proof.Proof.RefValue
import proofs.«402470_j15049565405346_3_alg».proof.Proof.Spec
import proofs.«402470_j15049565405346_3_alg».proof.Proof.Gen.Pre_any_inputs

noncomputable section

namespace Cert.RefSide

open Cert.ReferenceIdeal Cert.ReferenceIdeal.Gen Cert.Hist Idealize.ShloMosaic Idealize.ShloMosaic.TcCoe Idealize.SL.Sem

set_option maxRecDepth 16384 in
/-- The reference's result term is the score function at its histogram: the same lines, the histogram named. -/
theorem res_eq_tail {F : FTy → Type} [FloatOps F] (m : (ℓ : Loc nD τ sig) → Buf (Elt F) ℓ) (c : Dev nD) :
    Cert.ReferenceIdeal.ValueP.res_main_v53 m c = tailR (F := F) (shapeCast S65x65 (Host.scatterAdd scatter_S4225_S4194304x1_S4194304_n_0_0_1 (broadcastInDim S4225 ![] bcast_S_S4225 (constant S_ .f32 0x00000000#32)) (broadcastInDim S4194304x1 ![0] bcast_S4194304_S4194304x1_0 (addi (muli (shapeCast S4194304 (m ((c.tc : Thread nD τ).loc main_arg0)) shapeCasts_S2048x2048_S4194304) (broadcastInDim S4194304 ![] bcast_S_S4194304 (constantI S_ 32 65#32))) (shapeCast S4194304 (m ((c.tc : Thread nD τ).loc main_arg1)) shapeCasts_S2048x2048_S4194304))) (broadcastInDim S4194304 ![] bcast_S_S4194304 (constant S_ .f32 0x3F800000#32))) shapeCasts_S4225_S65x65) := by
  unfold Cert.ReferenceIdeal.ValueP.res_main_v53 tailR
  rfl

/-- For label images in range, every weakly fair execution of the reference terminates with the score of the
    confusion matrix of its two argument images in the result buffer, and the arguments unchanged. -/
theorem ref_run (m : (ℓ : Loc nD τ sig) → Buf (Elt Ideal) ℓ) (ρ : Dev nD → PrngReg)
    (hpre : ∀ c : Dev nD, Cert.Pre_any_inputs.fn (F := Ideal) (m ((c.tc : Thread nD τ).loc main_arg0)) (m ((c.tc : Thread nD τ).loc main_arg1)) = fun _ => 1#1) :
    θ_run (defs (F := Ideal)) (onTc (τ := τ) (main (F := Ideal))) ⟨m, fun _ => 0, ρ⟩ fun r => ∀ c : Dev nD,
      r.2.mem ((c.tc : Thread nD τ).loc main_v53) = tailR (F := Ideal) (conf (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨h1, h2, h3⟩ := h c
      obtain ⟨hP, hT⟩ := pre_decode _ _ (hpre c)
      exact ⟨(h1.trans (res_eq_tail m c)).trans (congrArg (tailR (F := Ideal)) (ref_conf _ _ hP hT)), h2, h3⟩)
    (Cert.ReferenceIdeal.ValueP.run m ρ)

end Cert.RefSide

end
-- ==== Proof.lean ====
/-
  The five claims of the certificate and what joins them.

  Three claims say that a program runs to the end and leaves its two argument images as they were: the kernel as
  printed, its idealization, and the idealized reference.  For the two kernel programs this is the frame run of the
  one region followed by the host lines after it; for the reference, the run of its host lines.  The idealization
  rewrote no operation, so nothing is owed for it.  The last claim is the equality of results on the extended reals:
  the idealized kernel ends with the score function applied to the co-occurrence count of the two label images (its
  region adds up the count in two partial histograms, and the lines after the region add them and compute the
  score), and the idealized reference, for images in range, ends with the same score function applied to its
  scattered histogram, which is that count.  The common value is the score of the confusion matrix.
-/
import proofs.«402470_j15049565405346_3_alg».proof.Defs
import proofs.«402470_j15049565405346_3_alg».proof.Proof.Gen.Kernel
import proofs.«402470_j15049565405346_3_alg».proof.Proof.Gen.KernelIdeal
import proofs.«402470_j15049565405346_3_alg».proof.Proof.Gen.ReferenceIdeal
import proofs.«402470_j15049565405346_3_alg».proof.Proof.Gen.Pre_any_inputs
import proofs.«402470_j15049565405346_3_alg».proof.Proof.K.Frame
import proofs.«402470_j15049565405346_3_alg».proof.Proof.KI.Frame
import proofs.«402470_j15049565405346_3_alg».proof.Proof.KI.Value
import proofs.«402470_j15049565405346_3_alg».proof.Proof.RefRunP
import proofs.«402470_j15049565405346_3_alg».proof.Proof.RefAsm
import proofs.«402470_j15049565405346_3_alg».proof.Proof.TailFn
import proofs.«402470_j15049565405346_3_alg».proof.Proof.Spec
import Idealize.ShloMosaic.Adequacy
import Idealize.ShloMosaic.Init

noncomputable section

/-! ## The claims -/

namespace Cert.Proof.Claims

open Idealize.ShloMosaic Idealize.SL.Sem

/-- The kernel as printed runs and leaves both images unchanged. -/
theorem frame_k : Cert.frame_Kernel := fun m ρ _ => Cert.Kernel.Hand.frame (F := Bits) m ρ

/-- The idealized kernel runs and leaves both images unchanged. -/
theorem frame_ki : Cert.frame_KernelIdeal := fun m ρ _ => Cert.KernelIdeal.Hand.frame (F := Ideal) m ρ

/-- The idealized reference runs and leaves both images unchanged: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- On the extended reals both programs end with the score of the confusion matrix of the two images: the kernel's
    program for any images, the reference for images in range, which the precondition gives through the agreement
    of the two memories on the arguments. -/
theorem algebraic : Cert.algebraic_KernelIdeal_ReferenceIdeal := by
  intro m ρ m' ρ' hpre hagree
  refine ⟨fun c => Cert.RefSide.tailR (F := Ideal)
      (Cert.Hist.conf (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
    Cert.KernelIdeal.Hand.kernel_run m ρ, ?_⟩
  refine (θ_run Cert.ReferenceIdeal.defs _ _).mono (fun _ h c => ⟨(h c).1.trans ?_, (h c).2⟩)
    (Cert.RefSide.ref_run m' ρ' (fun c => by rw [(hagree c).1, (hagree c).2]; exact hpre c))
  rw [(hagree c).1, (hagree c).2]

end Cert.Proof.Claims

namespace Cert.Proof

theorem claim : Cert.Claim := ⟨Cert.Kernel.Gen.facts, Cert.KernelIdeal.Gen.facts, Cert.ReferenceIdeal.Gen.facts, Cert.Pre_any_inputs.Gen.facts,
  Claims.frame_k, Claims.frame_ki, Claims.frame_ri, Claims.preserves, Claims.algebraic⟩

end Cert.Proof

end
